-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x8 : Shape := ⟨3, ![4, 2048, 8]⟩
abbrev S_ : Shape := ⟨0, ![]⟩

class Facts : Prop where
  bcast_S_S4x2048x8 : S_.BroadcastsInDim S4x2048x8 (![] : Fin 0 → Fin S4x2048x8.rank)
  reducesTo_S4x2048x8_S_d0_1_2 : S4x2048x8.ReducesTo [0, 1, 2] S_
  h_S_ : 0 < S_.numel

variable [Facts]

def fn {F : FTy → Type} [FloatOps F] (main_arg0 : FVec F S4x2048x8 .f32) : IVec S_ 1 :=
  let main_v0 : FVec F S4x2048x8 .f32 := Host.absf main_arg0
  let main_cst : FVec F S_ .f32 := constant S_ .f32 0x7F800000#32
  let main_v1 : FVec F S4x2048x8 .f32 := broadcastInDim S4x2048x8 ![] bcast_S_S4x2048x8 main_cst
  let main_v2 : IVec S4x2048x8 1 := cmpf .olt main_v0 main_v1
  let main_c : IVec S_ 1 := constantI S_ 1 1#1
  let main_v3 : IVec S_ 1 := (fun x v => Host.reduce IntOp.andi x v reducesTo_S4x2048x8_S_d0_1_2 h_S_) main_v2 main_c
  main_v3
-- ==== Kernel.lean ====
abbrev S4x2048x8 : Shape := ⟨3, ![4, 2048, 8]⟩
abbrev S4x8x2048 : Shape := ⟨3, ![4, 8, 2048]⟩
abbrev S1x8x512 : Shape := ⟨3, ![1, 8, 512]⟩
abbrev S1x8x256 : Shape := ⟨3, ![1, 8, 256]⟩
abbrev S8x512 : Shape := ⟨2, ![8, 512]⟩
abbrev S8x256 : Shape := ⟨2, ![8, 256]⟩
abbrev S8x512x1 : Shape := ⟨3, ![8, 512, 1]⟩
abbrev S8x1x256 : Shape := ⟨3, ![8, 1, 256]⟩
abbrev S8x512x256 : Shape := ⟨3, ![8, 512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4x2048x8, .f32⟩
  | .hbm, ⟨1, _⟩ => ⟨S4x8x2048, .f32⟩
  | .hbm, ⟨2, _⟩ => ⟨S4x8x2048, .f32⟩
  | .hbm, ⟨3, _⟩ => ⟨S4x2048x8, .f32⟩
  | .local _ .vmem, ⟨0, _⟩ => ⟨S1x8x512, .f32⟩
  | .local _ .vmem, ⟨1, _⟩ => ⟨S1x8x512, .f32⟩
  | .local _ .vmem, ⟨2, _⟩ => ⟨S1x8x256, .f32⟩
  | .local _ .vmem, ⟨3, _⟩ => ⟨S1x8x256, .f32⟩
  | .local _ .vmem, ⟨4, _⟩ => ⟨S1x8x512, .f32⟩
  | .local _ .vmem, ⟨5, _⟩ => ⟨S1x8x512, .f32⟩
  | .local _ .vmem, ⟨6, _⟩ => ⟨S8x512, .f32⟩
  | _, _ => ⟨S4x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_11 : BitVec 32 := 0#32
  let v23 : BitVec 1 := Scalar.cmpi .ne v22 c0_i32_11
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S4x2048x8_S4x8x2048_0_2_1 : S4x2048x8.Transposes [0, 2, 1] S4x8x2048
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  shapeCasts_S8x512_S8x512x1 : S8x512.ShapeCasts S8x512x1
  shapeCasts_S8x256_S8x1x256 : S8x256.ShapeCasts S8x1x256
  broadcasts_S8x512x1_S8x512x256 : S8x512x1.Broadcasts S8x512x256
  broadcasts_S8x1x256_S8x512x256 : S8x1x256.Broadcasts S8x512x256
  reduces_S8x512x256_S8x512 : S8x512x256.Reduces [2] S8x512
  shapeCasts_S8x512_S1x8x512 : S8x512.ShapeCasts S1x8x512
  transposes_S4x8x2048_S4x2048x8_0_2_1 : S4x8x2048.Transposes [0, 2, 1] S4x2048x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S4x8x2048.size a
  hwx0_0 : ∀ i : grid0.Coords, EltTy.bits .f32 = 32 ∨ (Rect.block (s := S4x8x2048) S1x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256.size a ≤ S4x8x2048.size a
  hwx0_1 : ∀ i : grid0.Coords, EltTy.bits .f32 = 32 ∨ (Rect.block (s := S4x8x2048) S1x8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S4x8x2048.size a
  hwx0_2 : ∀ i : grid0.Coords, EltTy.bits .f32 = 32 ∨ (Rect.block (s := S4x8x2048) S1x8x512.size (cc0_transform_2 i) (hinb0_2 i)).WholeWords (EltTy.packing .f32)

variable [Facts₀]

abbrev win0_0 : Pipeline.Window sig grid0 :=
  Pipeline.Window.ofSpec (Memref.whole main_v0) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x8 : Shape := ⟨3, ![4, 2048, 8]⟩
abbrev S4x2048x1x8 : Shape := ⟨4, ![4, 2048, 1, 8]⟩
abbrev S4x1x2048x8 : Shape := ⟨4, ![4, 1, 2048, 8]⟩
abbrev S4x2048x2048x8 : Shape := ⟨4, ![4, 2048, 2048, 8]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x8, .f32⟩
  | .hbm, ⟨1, _⟩ => ⟨S4x2048x1x8, .f32⟩
  | .hbm, ⟨2, _⟩ => ⟨S4x1x2048x8, .f32⟩
  | .hbm, ⟨3, _⟩ => ⟨S4x2048x2048x8, .f32⟩
  | .hbm, ⟨4, _⟩ => ⟨S4x2048x2048x8, .f32⟩
  | .hbm, ⟨5, _⟩ => ⟨S4x2048x2048x8, .f32⟩
  | .hbm, ⟨6, _⟩ => ⟨S_, .f32⟩
  | .hbm, ⟨7, _⟩ => ⟨S4x2048x2048x8, .f32⟩
  | .hbm, ⟨8, _⟩ => ⟨S4x2048x2048x8, .f32⟩
  | .hbm, ⟨9, _⟩ => ⟨S4x2048x2048x8, .f32⟩
  | .hbm, ⟨10, _⟩ => ⟨S4x2048x2048x8, .f32⟩
  | .hbm, ⟨11, _⟩ => ⟨S_, .f32⟩
  | .hbm, ⟨12, _⟩ => ⟨S4x2048x2048x8, .f32⟩
  | .hbm, ⟨13, _⟩ => ⟨S4x2048x2048x8, .f32⟩
  | .hbm, ⟨14, _⟩ => ⟨S_, .f32⟩
  | .hbm, ⟨15, _⟩ => ⟨S4x2048x2048x8, .f32⟩
  | .hbm, ⟨16, _⟩ => ⟨S4x2048x2048x8, .f32⟩
  | .hbm, ⟨17, _⟩ => ⟨S_, .f32⟩
  | .hbm, ⟨18, _⟩ => ⟨S4x2048x8, .f32⟩
  | .hbm, ⟨19, _⟩ => ⟨S_, .f32⟩
  | .hbm, ⟨20, _⟩ => ⟨S4x2048x8, .f32⟩
  | .hbm, ⟨21, _⟩ => ⟨S4x2048x8, .f32⟩
  | _, _ => ⟨S4x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S4x2048x8_S4x2048x1x8_0_1_3 : S4x2048x8.BroadcastsInDim S4x2048x1x8 (![0, 1, 3] : Fin 3 → Fin S4x2048x1x8.rank)
  bcast_S4x2048x8_S4x1x2048x8_0_2_3 : S4x2048x8.BroadcastsInDim S4x1x2048x8 (![0, 2, 3] : Fin 3 → Fin S4x1x2048x8.rank)
  bcast_S4x2048x1x8_S4x2048x2048x8_0_1_2_3 : S4x2048x1x8.BroadcastsInDim S4x2048x2048x8 (![0, 1, 2, 3] : Fin 4 → Fin S4x2048x2048x8.rank)
  bcast_S4x1x2048x8_S4x2048x2048x8_0_1_2_3 : S4x1x2048x8.BroadcastsInDim S4x2048x2048x8 (![0, 1, 2, 3] : Fin 4 → Fin S4x2048x2048x8.rank)
  bcast_S_S4x2048x2048x8 : S_.BroadcastsInDim S4x2048x2048x8 (![] : Fin 0 → Fin S4x2048x2048x8.rank)
  reducesTo_S4x2048x2048x8_S4x2048x8_d2 : S4x2048x2048x8.ReducesTo [2] S4x2048x8
  h_S_ : 0 < S_.numel
  bcast_S_S4x2048x8 : S_.BroadcastsInDim S4x2048x8 (![] : Fin 0 → Fin S4x2048x8.rank)

variable [Facts₀]

class Facts : Prop extends Facts₀ where

variable [Facts]
-- ==== Proof.K.Base.lean ====
/-
  The vocabulary the frame of the soft-rank kernel is stated over: the arrays' contents when the region is
  entered (the argument transposed to [4, 8, 2048] by the one host line before it), the kernel's scratch
  accumulator as a whole memref, the two halves of the transposed array's share that the query window and
  the key window hold (both read ONE array), and the region invariant's entry and exit form (the scratch
  at some contents).
-/
import proofs.«175407_j37194416783875_1_alg».proof.Proof.Gen.Kernel.Launch
import proofs.«175407_j37194416783875_1_alg».proof.Proof.Gen.Kernel.Points
import proofs.«175407_j37194416783875_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the transpose that precedes it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The running sum the kernel keeps between key tiles: a whole scoped buffer of its own. -/
abbrev scM : Memref sig .tc .vmem S8x512 .f32 := Memref.whole cc0_scratch0

/-- The query window and the key window read one array; each holds half of its share. -/
abbrev qQuery : PosShare TreeShare := fullShare.left
abbrev qKey : PosShare TreeShare := fullShare.right

/-- What the region is entered with and what it gives back besides the arrays: the running sum's buffer,
    at contents nobody names. -/
def ΦS (c : Dev nD) : sProp 𝕄 := iprop(∃ d, owns (c : Thread nD τ) scM fullShare d)

end Cert.Kernel.Hand

end
-- ==== Proof.K.Setup.lean ====
/-
  What the three cases of the kernel body's run are stated over: the blocks the two input windows hold at a
  grid point (the query tile and the key tile, both read off the transposed argument), the two conditions of
  the body in closed form over the grid (first key tile: the running sum is reset; last key tile: the scaled
  sum is stored to the output block), where the output window is idle, and the staging memrefs by name.
-/
import proofs.«175407_j37194416783875_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds the query tile at every point: fetched at the first key tile of a
    query tile, and left in place by the body at the others (the block index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds the key tile at every point (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key tile": the body's first conditional, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 8): the key-tile axis is the innermost of the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile": the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
/-- Off the last key tile the body stores nothing into the output block: the window is idle there, -/
theorem idleAt0_2 : ∀ t : Fin cfg0.N, ¬cond0_1 (grid0.coords t) → cfg0.idle 2 (grid0.coords t) = true := by decide +kernel
/-- and the pipeline does not write it back there. -/
theorem noFlush0_2 : ∀ t : Fin cfg0.N, ¬cond0_1 (grid0.coords t) → (cfg0.win 2).flush t = false := by decide +kernel
/-- At the last key tile it is live. -/
theorem liveAt0_2 : ∀ t : Fin cfg0.N, cond0_1 (grid0.coords t) → cfg0.idle 2 (grid0.coords t) = false := by decide +kernel

/-! ## The staging memrefs by name -/

/-- One staging buffer of the output window, through which its contents are stated. -/
abbrev VO0_2 : View sig .tc .vmem S1x8x512 .f32 := (Memref.whole cc0_stg2_0 : Memref sig .tc .vmem S1x8x512 .f32).view
abbrev ms0_0 (t : Fin cfg0.N) : Memref sig .tc .vmem S1x8x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x512 .f32 := win0_2.stage (cfg0.slots t 2)
abbrev hs0_2 (t : Fin cfg0.N) : (ms0_2 t).IsWhole := hstage0_2 ((cfg0.slots t 2).cast nbuf0_2)
/-- The running sum's buffer as a view: what it holds is stated through it. -/
abbrev VS0_0 : View sig .tc .vmem S8x512 .f32 := (scM : Memref sig .tc .vmem S8x512 .f32).view

end Cert.Kernel.Hand

end
-- ==== Proof.K.RunA.lean ====
/-
  The kernel body at the FIRST key tile of a query tile, run on whole staging memrefs: the running sum is reset
  to zero, the tile's lane sums are added to it, and nothing is stored into the output block (which is handed
  back as it was found). The run finds what the stores leave in the running sum's buffer, as a list of pieces.
-/
import proofs.«175407_j37194416783875_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point of the first key tile (`hc0`), not the last (`hc1`): from the query tile `x0` and the key tile `x1` in
    the input buffers, the output buffer at `xi2`, and the running sum's buffer at anything, the body runs to the
    continuation holding the inputs and the output buffer as they were and the running sum's buffer with the
    pieces `LS0` written. -/
noncomputable def kernelRun0_A (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : cond0_0 i) (hc1 : ¬cond0_1 i)
    (x0 : Vec F S1x8x512 .f32) (x1 : Vec F S1x8x256 .f32) :
    Σ' (L2 : List (View.Piece (Elt F) S1x8x512 .f32)), { LS0 : List (View.Piece (Elt F) S8x512 .f32) //
      ∀ (xi2 : Vec F S1x8x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__softrank_kernel i arg3 harg3 arg4 harg4 arg5 harg5 arg6 harg6) K } := by
  refine ⟨[], ?_, fun xi2 E K => ?run⟩
  case run =>
    simp only [cc0__softrank_kernel_eq_skeleton]; unfold cc0__softrank_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.RunB.lean ====
/-
  The kernel body at a MIDDLE key tile (neither the first nor the last), run on whole staging memrefs: the tile's
  lane sums are added to the running sum carried from the tile before; the output block is not touched.
-/
import proofs.«175407_j37194416783875_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point that is neither the first key tile (`hc0`) nor the last (`hc1`): from the query tile `x0`, the key
    tile `x1`, the output buffer at `xi2` and the running sum's buffer at `xs0` (what the tile before left), the body
    runs to the continuation holding the inputs and the output buffer as they were and the running sum's buffer
    with the pieces `LS0` written. -/
noncomputable def kernelRun0_B (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : ¬cond0_1 i)
    (x0 : Vec F S1x8x512 .f32) (x1 : Vec F S1x8x256 .f32) (xs0 : Vec F S8x512 .f32) :
    Σ' (L2 : List (View.Piece (Elt F) S1x8x512 .f32)), { LS0 : List (View.Piece (Elt F) S8x512 .f32) //
      ∀ (xi2 : Vec F S1x8x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__softrank_kernel i arg3 harg3 arg4 harg4 arg5 harg5 arg6 harg6) K } := by
  refine ⟨[], ?_, fun xi2 E K => ?run⟩
  case run =>
    simp only [cc0__softrank_kernel_eq_skeleton]; unfold cc0__softrank_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.RunC.lean ====
/-
  The kernel body at the LAST key tile of a query tile, run on whole staging memrefs: the tile's lane sums are
  added to the running sum, and the sum, scaled, is stored over the whole output block.
-/
import proofs.«175407_j37194416783875_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point of the last key tile (`hc1`), not the first (`hc0`): from the query tile `x0`, the key tile `x1`, the
    output buffer at anything and the running sum's buffer at `xs0`, the body runs to the continuation holding the
    inputs as they were, the output buffer with the pieces `L2` written and the running sum's buffer with `LS0`. -/
noncomputable def kernelRun0_C (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i)
    (x0 : Vec F S1x8x512 .f32) (x1 : Vec F S1x8x256 .f32) (xs0 : Vec F S8x512 .f32) :
    Σ' (L2 : List (View.Piece (Elt F) S1x8x512 .f32)), { LS0 : List (View.Piece (Elt F) S8x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__softrank_kernel i arg3 harg3 arg4 harg4 arg5 harg5 arg6 harg6) K } := by
  refine ⟨?_, ?_, fun E K => ?run⟩
  case run =>
    simp only [cc0__softrank_kernel_eq_skeleton]; unfold cc0__softrank_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.Body.lean ====
/-
  The proof data of the soft-rank kernel's one pipeline and its body obligation. The running sum the kernel
  keeps in scratch is followed point by point: at the first key tile of a query tile it is what the reset and
  the first tile's lane sums leave, at every later key tile what that tile's lane sums leave over the sum carried
  from the tile before. The output block is stored only at the last key tile (the scaled sum) and is idle, and
  not written back, at the other points. Each case of the body is one run on whole staging memrefs; the case is
  chosen by the point's position among the eight key tiles.
-/
import proofs.«175407_j37194416783875_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : cond0_0 i) (hc1 : ¬cond0_1 i) (x0 : Vec F S1x8x512 .f32) (x1 : Vec F S1x8x256 .f32) (y : S8x512.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S8x512.size (by sl_kernel_rfl) y

/-- The running sum after a first key tile: the case's pieces read back. -/
def sout0_A_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : cond0_0 i) (hc1 : ¬cond0_1 i) (x0 : Vec F S1x8x512 .f32) (x1 : Vec F S1x8x256 .f32) : Vec F S8x512 .f32 :=
  VS0_0.read (Elt F) (VS0_0.writes (Elt F) VS0_0.junk (kernelRun0_A c i arg3 harg3 arg4 harg4 arg5 harg5 arg6 harg6 hc0 hc1 x0 x1).2.1)

theorem scover0_B_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : ¬cond0_1 i) (x0 : Vec F S1x8x512 .f32) (x1 : Vec F S1x8x256 .f32) (xs0 : Vec F S8x512 .f32) (y : S8x512.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S8x512.size (by sl_kernel_rfl) y

/-- The running sum after a middle key tile, over the sum `xs0` carried into it. -/
def sout0_B_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : ¬cond0_1 i) (x0 : Vec F S1x8x512 .f32) (x1 : Vec F S1x8x256 .f32) (xs0 : Vec F S8x512 .f32) : Vec F S8x512 .f32 :=
  VS0_0.read (Elt F) (VS0_0.writes (Elt F) VS0_0.junk (kernelRun0_B c i arg3 harg3 arg4 harg4 arg5 harg5 arg6 harg6 hc0 hc1 x0 x1 xs0).2.1)

theorem scover0_C_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) (y : S8x512.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S8x512.size (by sl_kernel_rfl) y

/-- The running sum after the last key tile. -/
def sout0_C_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) : Vec F S8x512 .f32 :=
  VS0_0.read (Elt F) (VS0_0.writes (Elt F) VS0_0.junk (kernelRun0_C c i arg3 harg3 arg4 harg4 arg5 harg5 arg6 harg6 hc0 hc1 x0 x1 xs0).2.1)

theorem cover0_C_2 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) (y : S1x8x512.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x8x512.size (by sl_kernel_rfl) y

/-- The output block after the last key tile. -/
def out0_C_2 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) : Vec F S1x8x512 .f32 :=
  VO0_2.read (Elt F) (VO0_2.writes (Elt F) VO0_2.junk (kernelRun0_C c i arg3 harg3 arg4 harg4 arg5 harg5 arg6 harg6 hc0 hc1 x0 x1 xs0).1)

/-! ## The running sum, point by point -/

/-- What the running sum's buffer holds after the body at position `n`. -/
def accAt (c : Dev nD) : (n : ℕ) → n < cfg0.N → Vec F S8x512 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)
  | n + 1, hn =>
    if h0 : (n + 1) % 8 = 0 then
      if h1 : (n + 1) % 8 = 7 then
        False.elim (by omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)
    else
      if h1 : (n + 1) % 8 = 7 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (accAt c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (accAt c n (Nat.lt_of_succ_lt hn))

theorem accAt_A (c : Dev nD) (t : Fin cfg0.N) (h0 : t.val % 8 = 0) (h1 : ¬t.val % 8 = 7) :
    accAt m c t.val t.isLt = sout0_A_0 c (grid0.coords t) (ms0_0 t) (hs0_0 t) (ms0_1 t) (hs0_1 t) (ms0_2 t) (hs0_2 t) scM (Memref.isWhole_whole _) ((hcond0_0 t).mpr h0) (fun h => h1 ((hcond0_1 t).mp h)) (iblk m c 0 t) (iblk m c 1 t) := by
  obtain ⟨n, hn⟩ := t
  cases n with
  | zero => exact rfl
  | succ n => exact (dif_pos h0).trans ((dif_neg h1).trans rfl)

theorem accAt_B (c : Dev nD) (t : Fin cfg0.N) (h0 : ¬t.val % 8 = 0) (h1 : ¬t.val % 8 = 7) :
    accAt m c t.val t.isLt = sout0_B_0 c (grid0.coords t) (ms0_0 t) (hs0_0 t) (ms0_1 t) (hs0_1 t) (ms0_2 t) (hs0_2 t) scM (Memref.isWhole_whole _) (fun h => h0 ((hcond0_0 t).mp h)) (fun h => h1 ((hcond0_1 t).mp h)) (iblk m c 0 t) (iblk m c 1 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 8 = 0) (h1 : t.val % 8 = 7) :
    accAt m c t.val t.isLt = sout0_C_0 c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk m c 0 t) (iblk m c 1 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at the last key tile the scaled
    sum (over the running sum the tile before left); at the other points the window is idle and this is not
    consulted. -/
def outAt (c : Dev nD) (t : Fin cfg0.N) : Vec F S1x8x512 .f32 :=
  if h1 : t.val % 8 = 7 then
    out0_C_2 c (grid0.coords t) (ms0_0 t) (hs0_0 t) (ms0_1 t) (hs0_1 t) (ms0_2 t) (hs0_2 t) scM (Memref.isWhole_whole _) (fun h => (fun h => by omega) ((hcond0_0 t).mp h)) ((hcond0_1 t).mpr h1) (iblk m c 0 t) (iblk m c 1 t) (accAt m c (t.val - 1) (Nat.lt_of_le_of_lt (Nat.sub_le _ _) t.isLt))
  else VO0_2.read (Elt F) VO0_2.junk

theorem outAt_C (c : Dev nD) (t : Fin cfg0.N) (h0 : ¬t.val % 8 = 0) (h1 : t.val % 8 = 7) :
    outAt m c t = out0_C_2 c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk m c 0 t) (iblk m c 1 t) (accAt m c (t.val - 1) (Nat.lt_of_le_of_lt (Nat.sub_le _ _) t.isLt)) := by
  unfold outAt; rw [dif_pos h1]

/-! ## The region invariant -/

/-- Before the first point the running sum's buffer holds anything; before every later point what the point
    before left in it. -/
def PhiS (c : Dev nD) : (n : ℕ) → n ≤ cfg0.N → sProp 𝕄
  | 0, _ => ΦS c
  | n + 1, hn => owns (c : Thread nD τ) scM fullShare (accAt m c n hn)

theorem PhiS_zero (c : Dev nD) (n : ℕ) (h : n ≤ cfg0.N) (hz : n = 0) : PhiS m c n h = ΦS c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input window's buffer at its block and the output
    window's at `outAt`; the two input windows, which read one array, at half its share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => qQuery
    | ⟨1, _⟩ => qKey
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The input buffers hold the query tile and the key tile; the point's position among
    the eight key tiles says which case it is; the invariant hands the body the running sum at what the point
    before left (at anything, at the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [accAt_A m c t h0 h1]
    unfold sout0_A_0; (try dsimp only)
    by_cases hz : t.val = 0
    · rw [PhiS_castSucc m c t, PhiS_zero m c _ _ hz]
      unfold ΦS
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [accAt_C m c t h0 h1, outAt_C m c t h0 h1]
      unfold out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [accAt_B m c t h0 h1]
      unfold sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- The region is entered with the running sum's buffer at anything: the invariant before the first point. -/
theorem hin (c : Dev nD) : ΦS c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the buffer back, its contents forgotten. -/
theorem hout (c : Dev nD) : (dats m 0 c).Φ (Fin.last cfg0.N) ⊢ ΦS c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega)]
  unfold ΦS
  iintro HS0
  iexists _; iexact HS0

end Cert.Kernel.Hand

end
-- ==== Proof.K.Launch.lean ====
/-
  The launch of the soft-rank program: one transpose on the host, one pipelined region over a 4 x 4 x 8 grid, one
  transpose on the host. The region's query window and key window both read the transposed array, so the arrays
  behind the three windows are two buffers, not three, and the full share of the transposed array has to be cut in
  two before the region can be entered: the left half goes to the query window, the right half to the key window,
  and the result array goes whole to the output window. After the region the last transpose runs over the result
  array and the result buffer alone; the two halves are not touched and are handed back as they were.

  What is proved: for any proof data of the region whose body obligation holds, whose input windows hold those two
  halves, which owes nothing, whose arrays at entry are the contents after the first transpose, and whose invariant
  is entered from and returns the running sum's buffer at unnamed contents, the run of the whole program ends with
  the result buffer at the transpose of what the region left in the result array, and the argument unchanged.
-/
import proofs.«175407_j37194416783875_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The transpose before the region allocates no buffer. -/
theorem hostOps0_fresh : (hostOps0 : List (HloOp τ sig (Elt F))).Forall fun op => op.fresh = ∅ := by
  simp only [List.Forall]; repeat' constructor

/-- The program is the first transpose, the region, the last transpose: holding the region boundary and the unscoped
    buffers at the launch contents, it reduces to the region continued by the last transpose, the buffers then at the
    contents after the first. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-- The transpose before the region writes the transposed array only: the argument is as launched. -/
theorem V_main_arg0 (c : Dev nD) : V m c main_arg0 = m ((c : Thread nD τ).loc main_arg0) := by
  dsimp only [V, V0]
  simp only [List.flatten_cons, List.flatten_nil, List.append_nil]
  after_results

/-- The two buffers behind the three windows, each whole at the full share at the entry contents, are the
    pipeline's arrays at entry: the transposed array's full share is cut into its two halves, the left half for
    the query window and the right half for the key window (both only read it), and the result array goes
    whole to the output window. -/
theorem arrays_of_arrBufs {c : Dev nD} (dat : Dat τ (Elt F) Unit ℕ (UR sig nD τ) ℕ cfg0 c)
    (hq0 : dat.q 0 = qQuery) (hq1 : dat.q 1 = qKey) (hA : ∀ w, dat.A w = V m c (Pipeline.arrRef spec0 w)) :
    (Pipeline.arrBufs spec0 c (V m c) : sProp 𝕄) ⊢ dat.arrays (dat.arrAt · 0) := by
  unfold Pipeline.arrBufs Dat.arrays
  rw [bigSep_eq_bigSepL_of_eq [main_v0, main_v1] (by decide) (by decide), bigSep_W0]
  have h0 : ((cfg0.win 0).arr.view.loc (c.tc : Thread nD τ) ↦[(cfg0.win 0).arr.view.set]{dat.share 0} dat.arrAt 0 0 : sProp 𝕄)
      = (((c : Thread nD τ).loc main_v0) ↦{qQuery} V m c main_v0) := by
    rw [(arr_whole0 0).set_eq_univ, show dat.share 0 = dat.q 0 from rfl, hq0, show dat.arrAt 0 0 = dat.A 0 from rfl, hA 0]
  have h1 : ((cfg0.win 1).arr.view.loc (c.tc : Thread nD τ) ↦[(cfg0.win 1).arr.view.set]{dat.share 1} dat.arrAt 1 0 : sProp 𝕄)
      = (((c : Thread nD τ).loc main_v0) ↦{qKey} V m c main_v0) := by
    rw [(arr_whole0 1).set_eq_univ, show dat.share 1 = dat.q 1 from rfl, hq1, show dat.arrAt 1 0 = dat.A 1 from rfl, hA 1]
  have h2 : ((cfg0.win 2).arr.view.loc (c.tc : Thread nD τ) ↦[(cfg0.win 2).arr.view.set]{dat.share 2} dat.arrAt 2 0 : sProp 𝕄)
      = (((c : Thread nD τ).loc main_v1) ↦{fullShare} V m c main_v1) := by
    rw [(arr_whole0 2).set_eq_univ, show dat.share 2 = fullShare from rfl, show dat.arrAt 2 0 = dat.A 2 from rfl, hA 2]
  rw [h0, h1, h2]
  show iprop((((c : Thread nD τ).loc main_v0) ↦{fullShare} V m c main_v0) ∗ (((c : Thread nD τ).loc main_v1) ↦{fullShare} V m c main_v1))
    ⊢ (_ : sProp 𝕄)
  iintro ⟨H0, H1⟩
  ihave H0 := (pointsTo_share (PosShare.mem_left_op_right fullShare)).1 $$ H0
  icases H0 with ⟨Hl, Hr⟩
  isplitl [Hl]
  · iexact Hl
  isplitl [Hr]
  · iexact Hr
  · iexact H1

/-- The line after the region. The two input windows' halves of the transposed array are kept as they are; the
    result array is taken whole from the output window and the result buffer from the bypassing pair; the one
    transpose runs over these two buffers, leaving the result array unchanged and the result buffer at the
    transpose of what the region wrote; everything is handed back. -/
theorem tail_line {c : Dev nD} (dat : Dat τ (Elt F) Unit ℕ (UR sig nD τ) ℕ cfg0 c) (Q' : PUnit → sProp 𝕄) :
    iprop((iprop((dat.arrays fun w => dat.arrAt w cfg0.N)
            ∗ (((c : Thread nD τ).loc main_arg0) ↦{fullShare} V m c main_arg0)
            ∗ (((c : Thread nD τ).loc main_v2) ↦{fullShare} transpose S4x2048x8 [0, 2, 1] (dat.arrAt 2 cfg0.N) transposes_S4x8x2048_S4x2048x8_0_2_1)) -∗ Q' ⟨⟩)
        ∗ boundary (c.tc : Thread nD τ) ∗ (dat.arrays fun w => dat.arrAt w cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg) (defs₀ (F := F))) (Variants.lift Variants.none) (c.tc : Thread nD τ) none) Set.univ
          (Pipeline.chain [StableHlo.seq hostOps1]) Q' := by
  classical
  rw [Pipeline.unscopedRestP_none, unscopedRest0_eq]
  unfold Dat.arrays
  rw [bigSep_W0]
  have h2 : ((cfg0.win 2).arr.view.loc (c.tc : Thread nD τ) ↦[(cfg0.win 2).arr.view.set]{dat.share 2} dat.arrAt 2 cfg0.N : sProp 𝕄)
      = (((c : Thread nD τ).loc main_v1) ↦{fullShare} dat.arrAt 2 cfg0.N) := by
    rw [(arr_whole0 2).set_eq_univ, show dat.share 2 = fullShare from rfl]
  rw [h2, Pipeline.chain_cons, Pipeline.chain_nil]
  -- the contents the line starts from: the region's result in the result array, the entry contents elsewhere
  let W : Valuation τ sig (Elt F) := Function.update (V0 m c) (Proc.devRef .tc main_v1) (dat.arrAt 2 cfg0.N)
  have hne : Proc.devRef (τ := τ) .tc main_v1 ≠ Proc.devRef .tc main_v2 := StableHlo.devRef_ne_of_ne (by decide)
  have hW1 : W (Proc.devRef .tc main_v1) = dat.arrAt 2 cfg0.N := Function.update_self ..
  have hW2 : W (Proc.devRef .tc main_v2) = V m c main_v2 := Function.update_of_ne hne.symm ..
  have hA1 : StableHlo.after hostOps1 W (Proc.devRef .tc main_v1) = dat.arrAt 2 cfg0.N := by
    after_results; exact hW1
  have hA2 : StableHlo.after hostOps1 W (Proc.devRef .tc main_v2)
      = transpose S4x2048x8 [0, 2, 1] (dat.arrAt 2 cfg0.N) transposes_S4x8x2048_S4x2048x8_0_2_1 := by
    after_results; rw [hW1]
  have hnm : Proc.devRef (τ := τ) .tc main_v1 ∉ ({Proc.devRef .tc main_v2} : Finset (DevRef τ sig)) := by
    rw [Finset.mem_singleton]; exact hne
  have hheld : (StableHlo.held (c.tc : Thread nD τ) {Proc.devRef .tc main_v1, Proc.devRef .tc main_v2} W : sProp 𝕄)
      = iprop((((c : Thread nD τ).loc main_v1) ↦{fullShare} dat.arrAt 2 cfg0.N) ∗ (((c : Thread nD τ).loc main_v2) ↦{fullShare} V m c main_v2)) := by
    unfold StableHlo.held
    rw [bigSep_insert hnm, bigSep_singleton, hW1, hW2]; rfl
  have hheld' : (StableHlo.held (c.tc : Thread nD τ) {Proc.devRef .tc main_v1, Proc.devRef .tc main_v2} (StableHlo.after hostOps1 W) : sProp 𝕄)
      = iprop((((c : Thread nD τ).loc main_v1) ↦{fullShare} dat.arrAt 2 cfg0.N)
          ∗ (((c : Thread nD τ).loc main_v2) ↦{fullShare} transpose S4x2048x8 [0, 2, 1] (dat.arrAt 2 cfg0.N) transposes_S4x8x2048_S4x2048x8_0_2_1)) := by
    unfold StableHlo.held
    rw [bigSep_insert hnm, bigSep_singleton, hA1, hA2]; rfl
  have hS : ∀ op ∈ (hostOps1 : List (HloOp τ sig (Elt F))), op.bufs ⊆ ({Proc.devRef .tc main_v1, Proc.devRef .tc main_v2} : Finset (DevRef τ sig)) := by
    intro op hop
    rw [List.mem_singleton] at hop
    subst hop
    exact Finset.Subset.refl _
  have hf : ∀ op ∈ (hostOps1 : List (HloOp τ sig (Elt F))), op.fresh = ∅ := by
    intro op hop
    rw [List.mem_singleton] at hop
    subst hop
    rfl
  have hret : (Q' ⟨⟩ : sProp 𝕄)
      ⊢ wp frame (wpE (Pipeline.defs (fun q => (cfgs q).toPCfg) (defs₀ (F := F))) (Variants.lift Variants.none) (c.tc : Thread nD τ) none) Set.univ
          (pure ⟨⟩) Q' := le_wp_ret _ _ _ ⟨⟩ Q'
  iintro ⟨Hk, Hb, ⟨H0, H1, H2⟩, ⟨Ha, Hv⟩⟩
  ihave HS := (Entails.of_eq hheld.symm) $$ [H2 Hv]
  · isplitl [H2] <;> iassumption
  iapply (StableHlo.wp_seq (Variants.lift Variants.none) none Set.univ c {Proc.devRef .tc main_v1, Proc.devRef .tc main_v2} _ hostOps1 hS hf W) $$ [Hb HS]
  · isplitl [Hb] <;> iassumption
  iintro ⟨Hb, HS⟩
  ihave HS := (Entails.of_eq hheld') $$ HS
  icases HS with ⟨H2, Hv⟩
  iapply hret
  iapply Hk
  isplitl [H0 H1 H2]
  · isplitl [H0]; · iexact H0
    isplitl [H1]; · iexact H1
    iexact H2
  isplitl [Ha]
  · iexact Ha
  · iexact Hv

/-- The run of the whole program from the launch contents `m`. On every core the result buffer ends at the transpose
    of the output window's array after all the grid points, and the argument is as launched. The region's unscoped
    buffers that are no window's array (the argument and the result buffer) bypass it; its one scoped buffer that is
    no staging buffer (the running sum) goes through the invariant at unnamed contents. -/
theorem run_around
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = qQuery) (hq1 : ∀ c, (dats 0 c).q 1 = qKey)
    (howed : ∀ c t, (dats 0 c).owed t = 0)
    (hA : ∀ c w, (dats 0 c).A w = V m c (Pipeline.arrRef spec0 w))
    (hin : ∀ c, ΦS c ⊢ (dats 0 c).Φ 0) (hout : ∀ c, (dats 0 c).Φ (Fin.last cfg0.N) ⊢ ΦS c) :
    θ_run defs (onTc (τ := τ) (main (F := F))) ⟨m, fun _ => 0, ρ⟩ (fun r => ∀ c : Dev nD,
        r.2.mem ((c.tc : Thread nD τ).loc main_v2) = transpose S4x2048x8 [0, 2, 1] ((dats 0 c).arrAt 2 cfg0.N) transposes_S4x8x2048_S4x2048x8_0_2_1
      ∧ r.2.mem ((c.tc : Thread nD τ).loc main_arg0) = m ((c.tc : Thread nD τ).loc main_arg0)) := by
  classical
  refine Pipeline.θ_run_region_noSem_pf_tail (fun q => (cfgs q).toPCfg) (fun q => (cfgs q).toPCfg_adm) dats () cellOf_inj 0 winFacts₀0
    (Pipeline.PreFacts.none _) emb₁ defs₀ Variants.none m ρ main (fun _ => Pipeline.chain [StableHlo.seq hostOps1]) hbody
    block_pos0 arr_whole0 stage_whole0 howed
    (u₀ := initOf (Pipeline.cells _ cellOf_inj) (Pipeline.launchToks _ cellOf_inj))
    (hu₀ := ?hu0)
    (V := V m) (hmain := hmain m)
    (hsplit := ?hsplit) (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (V m c))
    (Z' := fun c => iprop((((c : Thread nD τ).loc main_arg0) ↦{fullShare} V m c main_arg0)
        ∗ (((c : Thread nD τ).loc main_v2) ↦{fullShare} transpose S4x2048x8 [0, 2, 1] ((dats 0 c).arrAt 2 cfg0.N) transposes_S4x8x2048_S4x2048x8_0_2_1)))
    (hX := ?hX) (hin := ?hin) (hout := ?hout) (htail := ?htail)
    (QY := fun c s => s.mem ((c.tc : Thread nD τ).loc main_v2) = transpose S4x2048x8 [0, 2, 1] ((dats 0 c).arrAt 2 cfg0.N) transposes_S4x8x2048_S4x2048x8_0_2_1
        ∧ s.mem ((c.tc : Thread nD τ).loc main_arg0) = V m c main_arg0)
    (hY := ?hY) (hQ := ?hQ)
  case hu0 => exact .rfl
  case hX =>
    intro c
    iintro H
    isplitr
    · iempintro
    · iexact H
  case hin =>
    intro c
    refine (?_ : _ ⊢ ΦS c).trans (hin c)
    rw [scopedRest0_eq]; unfold ΦS; simp only [scM, owns_whole]
    iintro ⟨-, -, HR⟩
    iexact HR
  case hout =>
    intro c
    refine (hout c).trans ?_
    rw [scopedRest0_eq]; unfold ΦS; simp only [scM, owns_whole]
    iintro HR
    isplitr
    · iempintro
    · iexact HR
  case hY =>
    intro c s'
    iintro ⟨-, ⟨Ha, Hv⟩, HSI⟩
    icombine HSI Ha gives %ha
    icombine HSI Hv gives %hv
    imodintro
    isplitr
    · ipureintro
      exact ⟨Buf.eq_of_forall_mem_univ hv, Buf.eq_of_forall_mem_univ ha⟩
    · iexact HSI
  case hQ =>
    intro s h c
    exact ⟨(h c).2.2.1, (h c).2.2.2.trans (V_main_arg0 m c)⟩
  case hsplit => exact fun c => arrays_of_arrBufs m (dats 0 c) (hq0 c) (hq1 c) (hA c)
  case htail => exact fun c Q' => tail_line m (dats 0 c) Q'

end Cert.Kernel.Hand

end
-- ==== Proof.KI.Base.lean ====
/-
  The vocabulary the frame of the soft-rank kernel is stated over: the arrays' contents when the region is
  entered (the argument transposed to [4, 8, 2048] by the one host line before it), the kernel's scratch
  accumulator as a whole memref, the two halves of the transposed array's share that the query window and
  the key window hold (both read ONE array), and the region invariant's entry and exit form (the scratch
  at some contents).
-/
import proofs.«175407_j37194416783875_1_alg».proof.Proof.Gen.KernelIdeal.Launch
import proofs.«175407_j37194416783875_1_alg».proof.Proof.Gen.KernelIdeal.Points
import proofs.«175407_j37194416783875_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the transpose that precedes it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The running sum the kernel keeps between key tiles: a whole scoped buffer of its own. -/
abbrev scM : Memref sig .tc .vmem S8x512 .f32 := Memref.whole cc0_scratch0

/-- The query window and the key window read one array; each holds half of its share. -/
abbrev qQuery : PosShare TreeShare := fullShare.left
abbrev qKey : PosShare TreeShare := fullShare.right

/-- What the region is entered with and what it gives back besides the arrays: the running sum's buffer,
    at contents nobody names. -/
def ΦS (c : Dev nD) : sProp 𝕄 := iprop(∃ d, owns (c : Thread nD τ) scM fullShare d)

end Cert.KernelIdeal.Hand

end
-- ==== Proof.KI.Setup.lean ====
/-
  What the three cases of the kernel body's run are stated over: the blocks the two input windows hold at a
  grid point (the query tile and the key tile, both read off the transposed argument), the two conditions of
  the body in closed form over the grid (first key tile: the running sum is reset; last key tile: the scaled
  sum is stored to the output block), where the output window is idle, and the staging memrefs by name.
-/
import proofs.«175407_j37194416783875_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds the query tile at every point: fetched at the first key tile of a
    query tile, and left in place by the body at the others (the block index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds the key tile at every point (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key tile": the body's first conditional, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 8): the key-tile axis is the innermost of the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile": the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
/-- Off the last key tile the body stores nothing into the output block: the window is idle there, -/
theorem idleAt0_2 : ∀ t : Fin cfg0.N, ¬cond0_1 (grid0.coords t) → cfg0.idle 2 (grid0.coords t) = true := by decide +kernel
/-- and the pipeline does not write it back there. -/
theorem noFlush0_2 : ∀ t : Fin cfg0.N, ¬cond0_1 (grid0.coords t) → (cfg0.win 2).flush t = false := by decide +kernel
/-- At the last key tile it is live. -/
theorem liveAt0_2 : ∀ t : Fin cfg0.N, cond0_1 (grid0.coords t) → cfg0.idle 2 (grid0.coords t) = false := by decide +kernel

/-! ## The staging memrefs by name -/

/-- One staging buffer of the output window, through which its contents are stated. -/
abbrev VO0_2 : View sig .tc .vmem S1x8x512 .f32 := (Memref.whole cc0_stg2_0 : Memref sig .tc .vmem S1x8x512 .f32).view
abbrev ms0_0 (t : Fin cfg0.N) : Memref sig .tc .vmem S1x8x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x512 .f32 := win0_2.stage (cfg0.slots t 2)
abbrev hs0_2 (t : Fin cfg0.N) : (ms0_2 t).IsWhole := hstage0_2 ((cfg0.slots t 2).cast nbuf0_2)
/-- The running sum's buffer as a view: what it holds is stated through it. -/
abbrev VS0_0 : View sig .tc .vmem S8x512 .f32 := (scM : Memref sig .tc .vmem S8x512 .f32).view

end Cert.KernelIdeal.Hand

end
-- ==== Proof.KI.RunA.lean ====
/-
  The kernel body at the FIRST key tile of a query tile, run on whole staging memrefs: the running sum is reset
  to zero, the tile's lane sums are added to it, and nothing is stored into the output block (which is handed
  back as it was found). The run finds what the stores leave in the running sum's buffer, as a list of pieces.
-/
import proofs.«175407_j37194416783875_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point of the first key tile (`hc0`), not the last (`hc1`): from the query tile `x0` and the key tile `x1` in
    the input buffers, the output buffer at `xi2`, and the running sum's buffer at anything, the body runs to the
    continuation holding the inputs and the output buffer as they were and the running sum's buffer with the
    pieces `LS0` written. -/
noncomputable def kernelRun0_A (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : cond0_0 i) (hc1 : ¬cond0_1 i)
    (x0 : Vec F S1x8x512 .f32) (x1 : Vec F S1x8x256 .f32) :
    Σ' (L2 : List (View.Piece (Elt F) S1x8x512 .f32)), { LS0 : List (View.Piece (Elt F) S8x512 .f32) //
      ∀ (xi2 : Vec F S1x8x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__softrank_kernel i arg3 harg3 arg4 harg4 arg5 harg5 arg6 harg6) K } := by
  refine ⟨[], ?_, fun xi2 E K => ?run⟩
  case run =>
    simp only [cc0__softrank_kernel_eq_skeleton]; unfold cc0__softrank_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.RunB.lean ====
/-
  The kernel body at a MIDDLE key tile (neither the first nor the last), run on whole staging memrefs: the tile's
  lane sums are added to the running sum carried from the tile before; the output block is not touched.
-/
import proofs.«175407_j37194416783875_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point that is neither the first key tile (`hc0`) nor the last (`hc1`): from the query tile `x0`, the key
    tile `x1`, the output buffer at `xi2` and the running sum's buffer at `xs0` (what the tile before left), the body
    runs to the continuation holding the inputs and the output buffer as they were and the running sum's buffer
    with the pieces `LS0` written. -/
noncomputable def kernelRun0_B (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : ¬cond0_1 i)
    (x0 : Vec F S1x8x512 .f32) (x1 : Vec F S1x8x256 .f32) (xs0 : Vec F S8x512 .f32) :
    Σ' (L2 : List (View.Piece (Elt F) S1x8x512 .f32)), { LS0 : List (View.Piece (Elt F) S8x512 .f32) //
      ∀ (xi2 : Vec F S1x8x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__softrank_kernel i arg3 harg3 arg4 harg4 arg5 harg5 arg6 harg6) K } := by
  refine ⟨[], ?_, fun xi2 E K => ?run⟩
  case run =>
    simp only [cc0__softrank_kernel_eq_skeleton]; unfold cc0__softrank_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.RunC.lean ====
/-
  The kernel body at the LAST key tile of a query tile, run on whole staging memrefs: the tile's lane sums are
  added to the running sum, and the sum, scaled, is stored over the whole output block.
-/
import proofs.«175407_j37194416783875_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point of the last key tile (`hc1`), not the first (`hc0`): from the query tile `x0`, the key tile `x1`, the
    output buffer at anything and the running sum's buffer at `xs0`, the body runs to the continuation holding the
    inputs as they were, the output buffer with the pieces `L2` written and the running sum's buffer with `LS0`. -/
noncomputable def kernelRun0_C (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i)
    (x0 : Vec F S1x8x512 .f32) (x1 : Vec F S1x8x256 .f32) (xs0 : Vec F S8x512 .f32) :
    Σ' (L2 : List (View.Piece (Elt F) S1x8x512 .f32)), { LS0 : List (View.Piece (Elt F) S8x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__softrank_kernel i arg3 harg3 arg4 harg4 arg5 harg5 arg6 harg6) K } := by
  refine ⟨?_, ?_, fun E K => ?run⟩
  case run =>
    simp only [cc0__softrank_kernel_eq_skeleton]; unfold cc0__softrank_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.Body.lean ====
/-
  The proof data of the soft-rank kernel's one pipeline and its body obligation. The running sum the kernel
  keeps in scratch is followed point by point: at the first key tile of a query tile it is what the reset and
  the first tile's lane sums leave, at every later key tile what that tile's lane sums leave over the sum carried
  from the tile before. The output block is stored only at the last key tile (the scaled sum) and is idle, and
  not written back, at the other points. Each case of the body is one run on whole staging memrefs; the case is
  chosen by the point's position among the eight key tiles.
-/
import proofs.«175407_j37194416783875_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : cond0_0 i) (hc1 : ¬cond0_1 i) (x0 : Vec F S1x8x512 .f32) (x1 : Vec F S1x8x256 .f32) (y : S8x512.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S8x512.size (by sl_kernel_rfl) y

/-- The running sum after a first key tile: the case's pieces read back. -/
def sout0_A_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : cond0_0 i) (hc1 : ¬cond0_1 i) (x0 : Vec F S1x8x512 .f32) (x1 : Vec F S1x8x256 .f32) : Vec F S8x512 .f32 :=
  VS0_0.read (Elt F) (VS0_0.writes (Elt F) VS0_0.junk (kernelRun0_A c i arg3 harg3 arg4 harg4 arg5 harg5 arg6 harg6 hc0 hc1 x0 x1).2.1)

theorem scover0_B_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : ¬cond0_1 i) (x0 : Vec F S1x8x512 .f32) (x1 : Vec F S1x8x256 .f32) (xs0 : Vec F S8x512 .f32) (y : S8x512.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S8x512.size (by sl_kernel_rfl) y

/-- The running sum after a middle key tile, over the sum `xs0` carried into it. -/
def sout0_B_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : ¬cond0_1 i) (x0 : Vec F S1x8x512 .f32) (x1 : Vec F S1x8x256 .f32) (xs0 : Vec F S8x512 .f32) : Vec F S8x512 .f32 :=
  VS0_0.read (Elt F) (VS0_0.writes (Elt F) VS0_0.junk (kernelRun0_B c i arg3 harg3 arg4 harg4 arg5 harg5 arg6 harg6 hc0 hc1 x0 x1 xs0).2.1)

theorem scover0_C_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) (y : S8x512.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S8x512.size (by sl_kernel_rfl) y

/-- The running sum after the last key tile. -/
def sout0_C_0 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) : Vec F S8x512 .f32 :=
  VS0_0.read (Elt F) (VS0_0.writes (Elt F) VS0_0.junk (kernelRun0_C c i arg3 harg3 arg4 harg4 arg5 harg5 arg6 harg6 hc0 hc1 x0 x1 xs0).2.1)

theorem cover0_C_2 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) (y : S1x8x512.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x8x512.size (by sl_kernel_rfl) y

/-- The output block after the last key tile. -/
def out0_C_2 (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) : Vec F S1x8x512 .f32 :=
  VO0_2.read (Elt F) (VO0_2.writes (Elt F) VO0_2.junk (kernelRun0_C c i arg3 harg3 arg4 harg4 arg5 harg5 arg6 harg6 hc0 hc1 x0 x1 xs0).1)

/-! ## The running sum, point by point -/

/-- What the running sum's buffer holds after the body at position `n`. -/
def accAt (c : Dev nD) : (n : ℕ) → n < cfg0.N → Vec F S8x512 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)
  | n + 1, hn =>
    if h0 : (n + 1) % 8 = 0 then
      if h1 : (n + 1) % 8 = 7 then
        False.elim (by omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)
    else
      if h1 : (n + 1) % 8 = 7 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (accAt c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (accAt c n (Nat.lt_of_succ_lt hn))

theorem accAt_A (c : Dev nD) (t : Fin cfg0.N) (h0 : t.val % 8 = 0) (h1 : ¬t.val % 8 = 7) :
    accAt m c t.val t.isLt = sout0_A_0 c (grid0.coords t) (ms0_0 t) (hs0_0 t) (ms0_1 t) (hs0_1 t) (ms0_2 t) (hs0_2 t) scM (Memref.isWhole_whole _) ((hcond0_0 t).mpr h0) (fun h => h1 ((hcond0_1 t).mp h)) (iblk m c 0 t) (iblk m c 1 t) := by
  obtain ⟨n, hn⟩ := t
  cases n with
  | zero => exact rfl
  | succ n => exact (dif_pos h0).trans ((dif_neg h1).trans rfl)

theorem accAt_B (c : Dev nD) (t : Fin cfg0.N) (h0 : ¬t.val % 8 = 0) (h1 : ¬t.val % 8 = 7) :
    accAt m c t.val t.isLt = sout0_B_0 c (grid0.coords t) (ms0_0 t) (hs0_0 t) (ms0_1 t) (hs0_1 t) (ms0_2 t) (hs0_2 t) scM (Memref.isWhole_whole _) (fun h => h0 ((hcond0_0 t).mp h)) (fun h => h1 ((hcond0_1 t).mp h)) (iblk m c 0 t) (iblk m c 1 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 8 = 0) (h1 : t.val % 8 = 7) :
    accAt m c t.val t.isLt = sout0_C_0 c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk m c 0 t) (iblk m c 1 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at the last key tile the scaled
    sum (over the running sum the tile before left); at the other points the window is idle and this is not
    consulted. -/
def outAt (c : Dev nD) (t : Fin cfg0.N) : Vec F S1x8x512 .f32 :=
  if h1 : t.val % 8 = 7 then
    out0_C_2 c (grid0.coords t) (ms0_0 t) (hs0_0 t) (ms0_1 t) (hs0_1 t) (ms0_2 t) (hs0_2 t) scM (Memref.isWhole_whole _) (fun h => (fun h => by omega) ((hcond0_0 t).mp h)) ((hcond0_1 t).mpr h1) (iblk m c 0 t) (iblk m c 1 t) (accAt m c (t.val - 1) (Nat.lt_of_le_of_lt (Nat.sub_le _ _) t.isLt))
  else VO0_2.read (Elt F) VO0_2.junk

theorem outAt_C (c : Dev nD) (t : Fin cfg0.N) (h0 : ¬t.val % 8 = 0) (h1 : t.val % 8 = 7) :
    outAt m c t = out0_C_2 c (grid0.coords t) (ms0_0 t) (hs0_0 t) (ms0_1 t) (hs0_1 t) (ms0_2 t) (hs0_2 t) scM (Memref.isWhole_whole _) (fun h => h0 ((hcond0_0 t).mp h)) ((hcond0_1 t).mpr h1) (iblk m c 0 t) (iblk m c 1 t) (accAt m c (t.val - 1) (Nat.lt_of_le_of_lt (Nat.sub_le _ _) t.isLt)) := by
  unfold outAt; rw [dif_pos h1]

/-! ## The region invariant -/

/-- Before the first point the running sum's buffer holds anything; before every later point what the point
    before left in it. -/
def PhiS (c : Dev nD) : (n : ℕ) → n ≤ cfg0.N → sProp 𝕄
  | 0, _ => ΦS c
  | n + 1, hn => owns (c : Thread nD τ) scM fullShare (accAt m c n hn)

theorem PhiS_zero (c : Dev nD) (n : ℕ) (h : n ≤ cfg0.N) (hz : n = 0) : PhiS m c n h = ΦS c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input window's buffer at its block and the output
    window's at `outAt`; the two input windows, which read one array, at half its share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => qQuery
    | ⟨1, _⟩ => qKey
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The input buffers hold the query tile and the key tile; the point's position among
    the eight key tiles says which case it is; the invariant hands the body the running sum at what the point
    before left (at anything, at the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [accAt_A m c t h0 h1]
    unfold sout0_A_0; (try dsimp only)
    by_cases hz : t.val = 0
    · rw [PhiS_castSucc m c t, PhiS_zero m c _ _ hz]
      unfold ΦS
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [accAt_C m c t h0 h1, outAt_C m c t h0 h1]
      unfold out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [accAt_B m c t h0 h1]
      unfold sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- The region is entered with the running sum's buffer at anything: the invariant before the first point. -/
theorem hin (c : Dev nD) : ΦS c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the buffer back, its contents forgotten. -/
theorem hout (c : Dev nD) : (dats m 0 c).Φ (Fin.last cfg0.N) ⊢ ΦS c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega)]
  unfold ΦS
  iintro HS0
  iexists _; iexact HS0

end Cert.KernelIdeal.Hand

end
-- ==== Proof.KV.Pieces.lean ====
/-
  What each case of the kernel body leaves, as a value. The running sum after a key tile is the body's one
  arithmetic term of the query tile, the key tile and the sum carried in: the carried sum plus, lane by lane, the
  sum over the key tile of the logistic of the scaled differences. At the first key tile the carried sum is the
  zero block the reset has just stored; at the last the output block is the new sum times the scale.
-/
import proofs.«175407_j37194416783875_1_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A middle key tile: the carried sum plus this tile's lane sums. -/
theorem sout_B (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : ¬cond0_1 i) (x0 : Vec F S1x8x512 .f32) (x1 : Vec F S1x8x256 .f32) (xs0 : Vec F S8x512 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz2]
  simp only [View.readAt_eq_ld, harg3.read_unread, harg4.read_unread, harg6.read_unread, View.ld_unit_zero (S := S1x8x512) hz3, View.ld_unit_zero (S := S1x8x256) hz3, View.ld_unit_zero (S := S8x512) hz2, View.readCov_unit_zero (S := S8x512) _ hz2]

/-- The first key tile: the zero block plus this tile's lane sums (the reset's store is read back by the
    accumulation's load). -/
theorem sout_A (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : cond0_0 i) (hc1 : ¬cond0_1 i) (x0 : Vec F S1x8x512 .f32) (x1 : Vec F S1x8x256 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S8x512) hz2]
  simp only [View.readAt_eq_ld, harg3.read_unread, harg4.read_unread, harg6.read_unread, View.ld_unit_zero (S := S1x8x512) hz3, View.ld_unit_zero (S := S1x8x256) hz3, View.ld_unit_zero (S := S8x512) hz2, View.readCov_unit_zero (S := S8x512) _ hz2]

/-- The last key tile: the running sum as at a middle tile, -/
theorem sout_C (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz2]
  simp only [View.readAt_eq_ld, harg3.read_unread, harg4.read_unread, harg6.read_unread, View.ld_unit_zero (S := S1x8x512) hz3, View.ld_unit_zero (S := S1x8x256) hz3, View.ld_unit_zero (S := S8x512) hz2, View.readCov_unit_zero (S := S8x512) _ hz2]

/-- and the output block: that sum, scaled. -/
theorem out_C (c : Dev nD) (i : grid0.Coords) (arg3 : Memref sig .tc .vmem S1x8x512 .f32) (harg3 : arg3.IsWhole) (arg4 : Memref sig .tc .vmem S1x8x256 .f32) (harg4 : arg4.IsWhole) (arg5 : Memref sig .tc .vmem S1x8x512 .f32) (harg5 : arg5.IsWhole) (arg6 : Memref sig .tc .vmem S8x512 .f32) (harg6 : arg6.IsWhole) (hc0 : ¬cond0_0 i) (hc1 : cond0_1 i) (x0 : Vec F S1x8x512 .f32) (x1 : Vec F S1x8x256 .f32) (xs0 : Vec F S8x512 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz3]
  simp only [View.readAt_eq_ld, harg3.read_unread, harg4.read_unread, harg6.read_unread, View.ld_unit_zero (S := S1x8x512) hz3, View.ld_unit_zero (S := S1x8x256) hz3, View.ld_unit_zero (S := S8x512) hz2, View.readCov_unit_zero (S := S8x512) _ hz2]

end Cert.KernelIdeal.Hand

end
-- ==== Proof.KV.Blocks.lean ====
/-
  The input blocks read at an index. The array the two input windows read is the argument `[4, 2048, 8]` with its
  last two axes swapped by the one host line before the region, so its entry `(b, d, n)` is the argument's `(b, n, d)`.
  The grid is `(4, 4, 8)`, last axis innermost: point `t` has coordinates `(t / 32, (t / 8) % 4, t % 8)`. The query
  window's block `[1, 8, 512]` sits at block index `(t / 32, 0, (t / 8) % 4)` and the key window's block `[1, 8, 256]`
  at `(t / 32, 0, t % 8)`; a block's entry lies in the array at block index × block extent + the coordinate inside the
  block, axis by axis.
-/
import proofs.«175407_j37194416783875_1_alg».proof.Proof.KI.Setup
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The array the windows read -/

/-- The transposed argument: entry `(b, d, n)` of the array the region finds is the argument's entry `(b, n, d)`. -/
theorem V_v0_apply (c : Dev nD) (b : Fin 4) (d : Fin 8) (n : Fin 2048) :
    (V m c main_v0 : S4x8x2048.Idx → Elt F .f32) (ix3 b d n) = m ((c : Thread nD τ).loc main_arg0) (ix3 b n d) := by
  have e : (V m c main_v0 : S4x8x2048.Idx → Elt F .f32)
      = transpose S4x8x2048 [0, 2, 1] (m ((c : Thread nD τ).loc main_arg0)) transposes_S4x2048x8_S4x8x2048_0_2_1 := by
    dsimp only [V, V0]
    simp only [hostOps0, List.flatten_cons, List.flatten_nil, List.append_nil]
    after_results
  rw [e]
  exact transpose_apply _ _ _ _ _ fun a => match a with | ⟨0, _⟩ => rfl | ⟨1, _⟩ => rfl | ⟨2, _⟩ => rfl

/-! ## The block indices over the grid -/

/-- The query window's block index at point `t`: the batch `t / 32`, the one row block, the query tile `(t / 8) % 4`. -/
theorem idx0_facts : ∀ t : Fin cfg0.N,
    win0_0.index t 0 = t.val / 32 ∧ win0_0.index t 1 = 0 ∧ win0_0.index t 2 = (t.val / 8) % 4 :=
  (by decide +kernel : ∀ t : Fin grid0.N, _)

/-- The key window's block index at point `t`: the batch `t / 32`, the one row block, the key tile `t % 8`. -/
theorem idx1_facts : ∀ t : Fin cfg0.N,
    win0_1.index t 0 = t.val / 32 ∧ win0_1.index t 1 = 0 ∧ win0_1.index t 2 = t.val % 8 :=
  (by decide +kernel : ∀ t : Fin grid0.N, _)

/-! ## The two tiles -/

/-- The query tile at point `t`: its entry `(0, d, n)` is the array's entry `(t / 32, d, 512 · ((t / 8) % 4) + n)`. -/
theorem iblk0_apply (c : Dev nD) (t : Fin cfg0.N) (d : Fin 8) (n : Fin 512) :
    (iblk m c 0 t : Vec F S1x8x512 .f32) (ix3 0 d n)
      = (V m c main_v0 : S4x8x2048.Idx → Elt F .f32)
          (ix3 ⟨t.val / 32, by have := t.isLt; have : cfg0.N = 128 := N_0; omega⟩ d
            ⟨512 * ((t.val / 8) % 4) + n.val, by omega⟩) := by
  obtain ⟨h0, h1, h2⟩ := idx0_facts t
  unfold iblk
  rw [View.read_apply]
  show V m c main_v0 (((cfg0.win 0).blk t).view.emb (ix3 0 d n)) = V m c main_v0 _
  refine congrArg (V m c main_v0) (funext fun a => Fin.ext ?_)
  match a with
  | ⟨0, _⟩ => show win0_0.index t 0 * 1 + 1 * 0 = t.val / 32; rw [h0]; omega
  | ⟨1, _⟩ => show win0_0.index t 1 * 8 + 1 * d.val = d.val; rw [h1]; omega
  | ⟨2, _⟩ => show win0_0.index t 2 * 512 + 1 * n.val = 512 * ((t.val / 8) % 4) + n.val; rw [h2]; omega

/-- The key tile at point `t`: its entry `(0, d, j)` is the array's entry `(t / 32, d, 256 · (t % 8) + j)`. -/
theorem iblk1_apply (c : Dev nD) (t : Fin cfg0.N) (d : Fin 8) (j : Fin 256) :
    (iblk m c 1 t : Vec F S1x8x256 .f32) (ix3 0 d j)
      = (V m c main_v0 : S4x8x2048.Idx → Elt F .f32)
          (ix3 ⟨t.val / 32, by have := t.isLt; have : cfg0.N = 128 := N_0; omega⟩ d
            ⟨256 * (t.val % 8) + j.val, by omega⟩) := by
  obtain ⟨h0, h1, h2⟩ := idx1_facts t
  unfold iblk
  rw [View.read_apply]
  show V m c main_v0 (((cfg0.win 1).blk t).view.emb (ix3 0 d j)) = V m c main_v0 _
  refine congrArg (V m c main_v0) (funext fun a => Fin.ext ?_)
  match a with
  | ⟨0, _⟩ => show win0_1.index t 0 * 1 + 1 * 0 = t.val / 32; rw [h0]; omega
  | ⟨1, _⟩ => show win0_1.index t 1 * 8 + 1 * d.val = d.val; rw [h1]; omega
  | ⟨2, _⟩ => show win0_1.index t 2 * 256 + 1 * j.val = 256 * (t.val % 8) + j.val; rw [h2]; omega

end Cert.KernelIdeal.Hand

end
-- ==== Proof.Payload.lean ====
/-
  The kernel body's arithmetic read at an index, at the ideal instance (a float is an extended real, every operation
  exact, a change of format the identity).

  The body stores three values. The first is the zero vector the running sum starts from. The second adds to the
  running sum `s`, at row `d` and query column `n`, the lane sum over the 256 key columns `j` of
  `logistic (1000 · (x0[0, d, n] − x1[0, d, j]))`: the two blocks are squeezed, re-laid as a column `[8, 512, 1]` and a
  row `[8, 1, 256]`, broadcast to `[8, 512, 256]`, subtracted, scaled, passed through the logistic function and summed
  along the last axis. The third scales the running sum by `2⁻¹¹` and adds a unit axis in front.
-/
import proofs.«175407_j37194416783875_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-! ## The reset value -/

/-- The value the running sum is reset to is the zero vector: a splat of the zero word, re-cast to its own shape. -/
theorem pay1_apply (d : Fin 8) (n : Fin 512) : k0_pay1 (F := Ideal) (ix2 d n) = 0 := by
  unfold k0_pay1
  rw [shapeCast_self]
  exact Ideal.ofBits_zero_f32

/-! ## The layout operations of the pairwise difference, read at explicit coordinates -/

section Layout
variable {α : Type}

/-- An `[a, b]` array cast to the column form `[a, b, 1]` reads, at `(i, j, u)`, the operand at `(i, j)`: a trailing
    unit axis does not move the row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to the row form `[a, 1, b]` reads, at `(i, u, j)`, the operand at `(i, j)`: a unit axis in
    the middle does not move the row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, b, 1]` broadcast along its unit axis to `[a, b, c]` reads, at `(i, j, k)`, the column's entry
    `(i, j, 0)`, whatever `k`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A row `[a, 1, c]` broadcast along its unit axis to `[a, b, c]` reads, at `(i, j, k)`, the row's entry
    `(i, 0, k)`, whatever `j`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The query operand of the difference: the block squeezed to `[8, 512]`, re-laid as a column and broadcast over the
    256 key columns reads, at `(d, n, j)`, the block's entry `(0, d, n)`. -/
theorem query_apply (x0 : S1x8x512.Idx → α) (h1 : S1x8x512.ShapeCasts S8x512) (h2 : S8x512.ShapeCasts S8x512x1)
    (h3 : S8x512x1.Broadcasts S8x512x256) (d : Fin 8) (n : Fin 512) (j : Fin 256) :
    broadcastTo S8x512x256 (shapeCast S8x512x1 (shapeCast S8x512 x0 h1) h2) h3 (ix3 d n j) = x0 (ix3 (0 : Fin 1) d n) :=
  (broadcastTo_ab1_abc_apply _ h3 d n j).trans
    ((shapeCast_ab_ab1_apply _ h2 d n 0).trans (shapeCast_1ab_ab_apply x0 h1 d n))

/-- The key operand of the difference: the block squeezed to `[8, 256]`, re-laid as a row and broadcast over the 512
    query columns reads, at `(d, n, j)`, the block's entry `(0, d, j)`. -/
theorem key_apply (x1 : S1x8x256.Idx → α) (h1 : S1x8x256.ShapeCasts S8x256) (h2 : S8x256.ShapeCasts S8x1x256)
    (h3 : S8x1x256.Broadcasts S8x512x256) (d : Fin 8) (n : Fin 512) (j : Fin 256) :
    broadcastTo S8x512x256 (shapeCast S8x1x256 (shapeCast S8x256 x1 h1) h2) h3 (ix3 d n j) = x1 (ix3 (0 : Fin 1) d j) :=
  (broadcastTo_a1c_abc_apply _ h3 d n j).trans
    ((shapeCast_ab_a1b_apply _ h2 d 0 j).trans (shapeCast_1ab_ab_apply x1 h1 d j))

end Layout

/-! ## The lane sum -/

/-- The sum along the last axis of an `[8, 512, 256]` vector into a zero accumulator is, at `(d, n)`, the plain sum over
    the 256 lane coordinates `j` of the entries `(d, n, j)`. -/
theorem laneSum_apply (src : FVec Ideal S8x512x256 .f32) (h : S8x512x256.Reduces [2] S8x512) (hφ : FKind.Formats .f32)
    (hacc : (0x00000000#32 : BitVec 32) = FKind.add.neutral .f32 hφ) (d : Fin 8) (n : Fin 512) :
    multiReduction (F := Ideal) .add [2] S8x512 src 0x00000000#32 h hφ hacc (ix2 d n) = ∑ j : Fin 256, src (ix3 d n j) := by
  refine (Ideal.multiReduction_add_single src 0x00000000#32 h hφ hacc (ix2 d n)).trans ?_
  refine Finset.sum_congr rfl fun j _ => congrArg src ?_
  funext c
  match c with
  | ⟨0, _⟩ => rfl
  | ⟨1, _⟩ => rfl
  | ⟨2, _⟩ => rfl

/-! ## The accumulation step -/

/-- The running sum after one key block: at `(d, n)` it is the old running sum plus the sum over the block's 256 key
    columns `j` of `logistic (1000 · (x0[0, d, n] − x1[0, d, j]))`. -/
theorem pay2_apply (x0 : Vec Ideal S1x8x512 .f32) (x1 : Vec Ideal S1x8x256 .f32) (s : Vec Ideal S8x512 .f32)
    (d : Fin 8) (n : Fin 512) :
    k0_pay2 (F := Ideal) x0 x1 s (ix2 d n)
      = s (ix2 d n) + ∑ j : Fin 256,
          Ideal.logistic (Ideal.ofBits .f32 0x447A0000#32 * (x0 (ix3 0 d n) - x1 (ix3 0 d j))) := by
  unfold k0_pay2
  refine (congrFun (shapeCast_self _ _) (ix2 d n)).trans ?_
  refine (addf_apply _ _ _).trans ?_
  refine congrArg (fun t => s (ix2 d n) + t) ?_
  refine (laneSum_apply _ _ _ _ d n).trans ?_
  refine Finset.sum_congr rfl fun j _ => ?_
  refine congrArg Ideal.logistic ?_
  refine congrArg (fun t => Ideal.ofBits .f32 0x447A0000#32 * t) ?_
  exact congrArg₂ (fun p q : EReal => p - q) (query_apply x0 _ _ _ d n j) (key_apply x1 _ _ _ d n j)

/-! ## The final scaling -/

/-- The final scaling: entry `(0, d, n)` of the stored block is entry `(d, n)` of the running sum times the
    splat literal `2⁻¹¹`; the cast to `[1, 8, 512]` only adds a unit axis in front. -/
theorem pay3_apply (v : Vec Ideal S8x512 .f32) (d : Fin 8) (n : Fin 512) :
    k0_pay3 (F := Ideal) v (ix3 0 d n) = v (ix2 d n) * Ideal.ofBits .f32 0x3A000000#32 := by
  unfold k0_pay3
  refine (shapeCast_ab_1ab_apply _ _ 0 d n).trans ?_
  rfl

end Cert.KernelIdeal.HandValue

end
-- ==== Proof.Spec.lean ====
/-
  The specification of the soft rank.  For an input x of shape [4, 2048, 8] the result at (b, n, d) is the mean,
  over the 2048 rows i of batch b, of the logistic comparison  σ(1000 · (x[b,n,d] − x[b,i,d])),
  where σ(t) = 1 / (1 + e^(−t)) on the extended reals.  The mean is written as the sum times 2⁻¹¹ (the word
  0x3A000000), and the sum over the 2048 rows splits into 8 consecutive tiles of 256 rows.
-/
import Idealize.ShloMosaic.PureOps.Ideal
import Idealize.ShloMosaic.Lib.ValueIdx
import Idealize.ShloMosaic.PureOps.Ideal.Laws
import Mathlib.Logic.Equiv.Fin.Basic
import Mathlib.Algebra.BigOperators.Group.Finset.Defs
import Mathlib.Data.Fintype.BigOperators

noncomputable section

namespace Cert.SoftRank

open Idealize.ShloMosaic Idealize.ShloMosaic.ValueIdx

/-- The shape of the input and of the result. -/
abbrev SX : Shape := ⟨3, ![4, 2048, 8]⟩

/-- One comparison: σ(1000 · (x[b,n,d] − x[b,i,d])). -/
def term (x : FVec Ideal SX .f32) (b : Fin 4) (n i : Fin 2048) (d : Fin 8) : EReal :=
  Ideal.logistic (Ideal.ofBits .f32 0x447A0000#32 * (x (ix3 b n d) - x (ix3 b i d)))

/-- The soft rank: at (b, n, d) the sum of the 2048 comparisons of row n against every row i, times 2⁻¹¹. -/
def G (x : FVec Ideal SX .f32) : FVec Ideal SX .f32 :=
  fun j => (∑ i : Fin 2048, term x (j 0) (j 1) i (j 2)) * Ideal.ofBits .f32 0x3A000000#32

theorem G_apply (x : FVec Ideal SX .f32) (b : Fin 4) (n : Fin 2048) (d : Fin 8) :
    G x (ix3 b n d) = (∑ i : Fin 2048, term x b n i d) * Ideal.ofBits .f32 0x3A000000#32 := rfl

/-- A sum over 2048 rows is the sum over 8 tiles of the sums over each tile's 256 rows: the row 256·t + j is the
    j-th row of tile t, and (t, j) ↦ 256·t + j is a bijection of Fin 8 × Fin 256 onto Fin 2048. -/
theorem sum_tiles (f : Fin 2048 → EReal) :
    ∑ i : Fin 2048, f i = ∑ t : Fin 8, ∑ j : Fin 256, f ⟨256 * t.val + j.val, by omega⟩ := by
  rw [← Equiv.sum_comp (finProdFinEquiv (m := 8) (n := 256)) f, Fintype.sum_prod_type]
  refine Finset.sum_congr rfl fun t _ => Finset.sum_congr rfl fun j _ => ?_
  exact congrArg f (Fin.ext (by simp only [finProdFinEquiv_apply_val]; omega))

end Cert.SoftRank

end
-- ==== Proof.KV.Accum.lean ====
/-
  The running sum, in closed form, over the extended reals. Write x' for the argument transposed to
  [4, 8, 2048] (what the region reads). At the grid point of batch b, query tile ni and key tile r the running
  sum's entry (d, n) is the ordered chain ((0 + T 0) + T 1) + … + T r, where T k is the sum over the 256 keys j
  of key tile k of logistic (1000 · (x'[b, d, 512 ni + n] − x'[b, d, 256 k + j])): by induction on r, each step
  one run of the body. After the eighth tile the chain is the sum over all 2048 keys, and the output block
  stored there is that sum times 2⁻¹¹.
-/
import proofs.«175407_j37194416783875_1_alg».proof.Proof.KV.Pieces
import proofs.«175407_j37194416783875_1_alg».proof.Proof.KV.Blocks
import proofs.«175407_j37194416783875_1_alg».proof.Proof.Payload
import proofs.«175407_j37194416783875_1_alg».proof.Proof.Spec

set_option maxRecDepth 16384

noncomputable section

namespace Cert.KernelIdeal.Hand

open Cert.KernelIdeal Cert.KernelIdeal.Gen Cert.KernelIdeal.HandValue Cert.SoftRank
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The argument as the region reads it: transposed to [4, 8, 2048]. -/
abbrev xT (c : Dev nD) : S4x8x2048.Idx → EReal := (V m c main_v0 : S4x8x2048.Idx → Elt Ideal .f32)

/-- One comparison: query column `nn` against key column `kk`, in batch `b` and feature `d`. -/
def sg (c : Dev nD) (b : Fin 4) (d : Fin 8) (nn kk : Fin 2048) : EReal :=
  Ideal.logistic (Ideal.ofBits .f32 0x447A0000#32 * (xT m c (ix3 b d nn) - xT m c (ix3 b d kk)))

/-- Key tile `k`'s contribution: the 256 comparisons against its keys, summed. -/
def tileSum (c : Dev nD) (b : Fin 4) (d : Fin 8) (nn : Fin 2048) (k : ℕ) : EReal :=
  ∑ j : Fin 256, sg m c b d nn ⟨(256 * k + j.val) % 2048, Nat.mod_lt _ (by norm_num)⟩

/-- The ordered chain of the first `r + 1` tiles' contributions, from zero. -/
def pre (c : Dev nD) (b : Fin 4) (d : Fin 8) (nn : Fin 2048) : ℕ → EReal
  | 0 => 0 + tileSum m c b d nn 0
  | r + 1 => pre c b d nn r + tileSum m c b d nn (r + 1)

/-- The grid point of batch `b`, query tile `ni`, key tile `r`: the key-tile axis is innermost. -/
abbrev pt (b ni : Fin 4) (r : ℕ) (hr : r < 8) : Fin cfg0.N :=
  ⟨32 * b.val + 8 * ni.val + r, by have : cfg0.N = 128 := N_0; have := b.isLt; have := ni.isLt; omega⟩

/-- The query column a lane of query tile `ni` stands for. -/
abbrev qcol (ni : Fin 4) (n : Fin 512) : Fin 2048 := ⟨512 * ni.val + n.val, by have := ni.isLt; have := n.isLt; omega⟩

/-- The query tile at that point, read at a lane. -/
theorem iblk0_at (c : Dev nD) (b ni : Fin 4) (r : ℕ) (hr : r < 8) (d : Fin 8) (n : Fin 512) :
    (iblk m c 0 (pt b ni r hr) : Vec Ideal S1x8x512 .f32) (ix3 0 d n) = xT m c (ix3 b d (qcol ni n)) := by
  rw [iblk0_apply]
  have hb := b.isLt; have hni := ni.isLt; have hn := n.isLt
  exact congrArg₂ (fun (a : Fin 4) (e : Fin 2048) => xT m c (ix3 a d e))
    (Fin.ext (by show (32 * b.val + 8 * ni.val + r) / 32 = b.val; omega))
    (Fin.ext (by show 512 * (((32 * b.val + 8 * ni.val + r) / 8) % 4) + n.val = 512 * ni.val + n.val; omega))

/-- The key tile at that point, read at a lane. -/
theorem iblk1_at (c : Dev nD) (b ni : Fin 4) (r : ℕ) (hr : r < 8) (d : Fin 8) (j : Fin 256) :
    (iblk m c 1 (pt b ni r hr) : Vec Ideal S1x8x256 .f32) (ix3 0 d j)
      = xT m c (ix3 b d ⟨(256 * r + j.val) % 2048, Nat.mod_lt _ (by norm_num)⟩) := by
  rw [iblk1_apply]
  have hb := b.isLt; have hni := ni.isLt; have hj := j.isLt
  exact congrArg₂ (fun (a : Fin 4) (e : Fin 2048) => xT m c (ix3 a d e))
    (Fin.ext (by show (32 * b.val + 8 * ni.val + r) / 32 = b.val; omega))
    (Fin.ext (by show 256 * ((32 * b.val + 8 * ni.val + r) % 8) + j.val = (256 * r + j.val) % 2048; omega))

/-- The query tile and the key tile at a point, at their literal shapes. -/
abbrev qblk (c : Dev nD) (t : Fin cfg0.N) : Vec Ideal S1x8x512 .f32 := iblk m c 0 t
abbrev kblk (c : Dev nD) (t : Fin cfg0.N) : Vec Ideal S1x8x256 .f32 := iblk m c 1 t

/-- The lane sums the body adds at that point are the key tile's contribution. -/
theorem tile_at (c : Dev nD) (b ni : Fin 4) (r : ℕ) (hr : r < 8) (d : Fin 8) (n : Fin 512) :
    (∑ j : Fin 256, Ideal.logistic (Ideal.ofBits .f32 0x447A0000#32
        * (qblk m c (pt b ni r hr) (ix3 0 d n) - kblk m c (pt b ni r hr) (ix3 0 d j))))
      = tileSum m c b d (qcol ni n) r := by
  unfold tileSum sg
  refine Finset.sum_congr rfl fun j _ => ?_
  rw [show qblk m c (pt b ni r hr) (ix3 0 d n) = xT m c (ix3 b d (qcol ni n)) from iblk0_at m c b ni r hr d n,
    show kblk m c (pt b ni r hr) (ix3 0 d j) = xT m c (ix3 b d ⟨(256 * r + j.val) % 2048, Nat.mod_lt _ (by norm_num)⟩) from iblk1_at m c b ni r hr d j]

/-- THE RUNNING SUM: after key tile `r` it is the ordered chain of the first `r + 1` contributions. -/
theorem acc_eq (c : Dev nD) (b ni : Fin 4) (d : Fin 8) (n : Fin 512) :
    ∀ (r : ℕ) (hr : r < 8), accAt m c (pt b ni r hr).val (pt b ni r hr).isLt (ix2 d n) = pre m c b d (qcol ni n) r
  | 0, hr => by
    have hb := b.isLt; have hni := ni.isLt
    have h0 : (pt b ni 0 hr).val % 8 = 0 := by show (32 * b.val + 8 * ni.val + 0) % 8 = 0; omega
    have h1 : ¬(pt b ni 0 hr).val % 8 = 7 := by omega
    rw [accAt_A m c _ h0 h1, sout_A, pay2_apply, pay1_apply, tile_at]
    rfl
  | r + 1, hr => by
    have hb := b.isLt; have hni := ni.isLt
    have hv : (pt b ni (r + 1) hr).val = 32 * b.val + 8 * ni.val + (r + 1) := rfl
    have h0 : ¬(pt b ni (r + 1) hr).val % 8 = 0 := by rw [hv]; omega
    have ih := acc_eq c b ni d n r (by omega)
    by_cases h1 : (pt b ni (r + 1) hr).val % 8 = 7
    · rw [accAt_C m c _ h0 h1, sout_C, pay2_apply, tile_at]
      show accAt m c (32 * b.val + 8 * ni.val + r) _ (ix2 d n) + _ = pre m c b d (qcol ni n) r + _
      rw [← ih]
    · rw [accAt_B m c _ h0 h1, sout_B, pay2_apply, tile_at]
      show accAt m c (32 * b.val + 8 * ni.val + r) _ (ix2 d n) + _ = pre m c b d (qcol ni n) r + _
      rw [← ih]

/-- The full chain is the sum over all 2048 keys. -/
theorem pre_seven (c : Dev nD) (b : Fin 4) (d : Fin 8) (nn : Fin 2048) :
    pre m c b d nn 7 = ∑ i : Fin 2048, sg m c b d nn i := by
  rw [sum_tiles (fun i => sg m c b d nn i), Fin.sum_univ_eight]
  have e : ∀ k : Fin 8, (∑ j : Fin 256, sg m c b d nn ⟨256 * k.val + j.val, by omega⟩) = tileSum m c b d nn k.val := fun k => by
    unfold tileSum
    refine Finset.sum_congr rfl fun j _ => ?_
    congr 1
    exact Fin.ext (by show 256 * k.val + j.val = (256 * k.val + j.val) % 2048; have := k.isLt; have := j.isLt; omega)
  simp only [e, pre, zero_add]
  rfl

/-- THE OUTPUT BLOCK at the last key tile of (b, ni): the sum over all keys, times the scale. -/
theorem outAt_last (c : Dev nD) (b ni : Fin 4) (d : Fin 8) (n : Fin 512) :
    outAt m c (pt b ni 7 (by norm_num)) (ix3 0 d n)
      = (∑ i : Fin 2048, sg m c b d (qcol ni n) i) * Ideal.ofBits .f32 0x3A000000#32 := by
  have hb := b.isLt; have hni := ni.isLt
  have hv : (pt b ni 7 (by norm_num)).val = 32 * b.val + 8 * ni.val + 7 := rfl
  have h0 : ¬(pt b ni 7 (by norm_num)).val % 8 = 0 := by rw [hv]; omega
  have h1 : (pt b ni 7 (by norm_num)).val % 8 = 7 := by rw [hv]; omega
  rw [outAt_C m c _ h0 h1, out_C, pay3_apply, pay2_apply, tile_at, ← pre_seven]
  show (accAt m c (32 * b.val + 8 * ni.val + 6) _ (ix2 d n) + _) * _ = _
  rw [show accAt m c (32 * b.val + 8 * ni.val + 6) _ (ix2 d n) = pre m c b d (qcol ni n) 6 from acc_eq m c b ni d n 6 (by norm_num)]
  rfl

end Cert.KernelIdeal.Hand

end
-- ==== Proof.KV.Cover.lean ====
/-
  From the output blocks to the result array.  The grid has 4 · 4 · 8 = 128 points; the point t stands for batch
  t / 32, query tile (t / 8) % 4 and key tile t % 8.  The output window's block is [1, 8, 512]: at point t it is the
  block (t / 32, 0, (t / 8) % 4) of the [4, 8, 2048] result array, that is batch t / 32, all 8 features, and the 512
  query rows 512 · ((t / 8) % 4) … 512 · ((t / 8) % 4) + 511.  It is written back exactly at the last key tile of each
  query tile (t % 8 = 7).  The 16 blocks so written are pairwise different and tile the array: the index (b, d, q)
  lies in the block of the point (b · 4 + q / 512) · 8 + 7.  So if what each such point stores is its block of one
  function H of the array's indices, the array ends holding H.
-/
import proofs.«175407_j37194416783875_1_alg».proof.Proof.KI.Body
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the output block sits at point t: batch t / 32, the whole feature axis, query tile (t / 8) % 4. -/
theorem out_index : ∀ t : Fin cfg0.N, win0_2.index t (0 : Fin 3) = t.val / 32 ∧ win0_2.index t (1 : Fin 3) = 0
    ∧ win0_2.index t (2 : Fin 3) = (t.val / 8) % 4 :=
  (by decide +kernel : ∀ t : Fin grid0.N, win0_2.index t (0 : Fin 3) = t.val / 32 ∧ win0_2.index t (1 : Fin 3) = 0
    ∧ win0_2.index t (2 : Fin 3) = (t.val / 8) % 4)

/-- What a point at a last key tile writes back is its block of H. -/
theorem flushed_out (c : Dev nD) (H : S4x8x2048.Idx → Elt F .f32)
    (hH : ∀ (t : Fin cfg0.N), t.val % 8 = 7 → ∀ (d : Fin 8) (n : Fin 512), outAt m c t (ix3 0 d n) = H (ix3 ⟨t.val / 32, by have := t.isLt; have : cfg0.N = 128 := N_0; omega⟩ d ⟨512 * ((t.val / 8) % 4) + n.val, by omega⟩))
    (t : Fin cfg0.N) (hf : (cfg0.win 2).flush t = true) :
    (dats m 0 c).flushed 2 t = ((cfg0.win 2).blk t).view.read (Elt F) H := by
  have h7 : t.val % 8 = 7 := (flush0_2 t).mp hf
  obtain ⟨e0, e1, e2⟩ := out_index t
  show (cfg0.win 2).cut (grid0.coords t) ((dats m 0 c).after 2 t) = _
  rw [after0_2]
  funext j
  show outAt m c t ((cfg0.win 2).xinj (grid0.coords t) j) = H (((cfg0.win 2).blk t).view.emb j)
  have hj0 : (j 0).val < 1 := (j 0).isLt
  have hj1 : (j 1).val < 8 := (j 1).isLt
  have hj2 : (j 2).val < 512 := (j 2).isLt
  have hj : (cfg0.win 2).xinj (grid0.coords t) j = ix3 (0 : Fin 1) (⟨(j 1).val, hj1⟩ : Fin 8) (⟨(j 2).val, hj2⟩ : Fin 512) :=
    funext fun a => Fin.ext (by
      match a with
      | ⟨0, _⟩ => show (j 0).val = 0; omega
      | ⟨1, _⟩ => rfl
      | ⟨2, _⟩ => rfl)
  rw [hj, hH t h7]
  refine congrArg H (funext fun a => Fin.ext ?_)
  match a with
  | ⟨0, _⟩ => show t.val / 32 = win0_2.index t (0 : Fin 3) * 1 + 1 * (j 0).val; omega
  | ⟨1, _⟩ => show (j 1).val = win0_2.index t (1 : Fin 3) * 8 + 1 * (j 1).val; omega
  | ⟨2, _⟩ => show 512 * ((t.val / 8) % 4) + (j 2).val = win0_2.index t (2 : Fin 3) * 512 + 1 * (j 2).val; omega

/-- Every index (b, d, q) of the result array lies in the block written back at the last key tile of batch b's
    query tile q / 512: the point ((b · 4 + q / 512) · 8 + 7). -/
theorem out_cover (i : S4x8x2048.Idx) :
    ∃ t : Fin cfg0.N, (cfg0.win 2).flush t = true ∧ i ∈ ((cfg0.win 2).blk t).view.set := by
  have hN : cfg0.N = 128 := N_0
  have h0 : (i 0).val < 4 := (i 0).isLt
  have h1 : (i 1).val < 8 := (i 1).isLt
  have h2 : (i 2).val < 2048 := (i 2).isLt
  obtain ⟨t, ht⟩ : ∃ t : Fin cfg0.N, t.val = ((i 0).val * 4 + (i 2).val / 512) * 8 + 7 := ⟨⟨_, by omega⟩, rfl⟩
  refine ⟨t, (flush0_2 t).mpr (by omega), ?_⟩
  obtain ⟨e0, e1, e2⟩ := out_index t
  show i ∈ ((View.whole main_v1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 512 ≤ (i 2).val ∧ (i 2).val < win0_2.index t (2 : Fin 3) * 512 + 512; omega

/-- The result array after the run: if the block stored at every last key tile is that point's block of H, the
    array holds H — the blocks of the 16 (batch, query tile) pairs tile it. -/
theorem arrAt_out (c : Dev nD) (H : S4x8x2048.Idx → Elt F .f32)
    (hH : ∀ (t : Fin cfg0.N), t.val % 8 = 7 → ∀ (d : Fin 8) (n : Fin 512), outAt m c t (ix3 0 d n) = H (ix3 ⟨t.val / 32, by have := t.isLt; have : cfg0.N = 128 := N_0; omega⟩ d ⟨512 * ((t.val / 8) % 4) + n.val, by omega⟩)) :
    (dats m 0 c).arrAt 2 cfg0.N = H :=
  (dats m 0 c).arrAt_eq_of_cover 2 H (fun t hf => flushed_out m c H hH t hf) out_cover

end Cert.KernelIdeal.Hand

end
-- ==== Proof.KI.Launch.lean ====
/-
  The launch of the soft-rank program: one transpose on the host, one pipelined region over a 4 x 4 x 8 grid, one
  transpose on the host. The region's query window and key window both read the transposed array, so the arrays
  behind the three windows are two buffers, not three, and the full share of the transposed array has to be cut in
  two before the region can be entered: the left half goes to the query window, the right half to the key window,
  and the result array goes whole to the output window. After the region the last transpose runs over the result
  array and the result buffer alone; the two halves are not touched and are handed back as they were.

  What is proved: for any proof data of the region whose body obligation holds, whose input windows hold those two
  halves, which owes nothing, whose arrays at entry are the contents after the first transpose, and whose invariant
  is entered from and returns the running sum's buffer at unnamed contents, the run of the whole program ends with
  the result buffer at the transpose of what the region left in the result array, and the argument unchanged.
-/
import proofs.«175407_j37194416783875_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The transpose before the region allocates no buffer. -/
theorem hostOps0_fresh : (hostOps0 : List (HloOp τ sig (Elt F))).Forall fun op => op.fresh = ∅ := by
  simp only [List.Forall]; repeat' constructor

/-- The program is the first transpose, the region, the last transpose: holding the region boundary and the unscoped
    buffers at the launch contents, it reduces to the region continued by the last transpose, the buffers then at the
    contents after the first. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-- The transpose before the region writes the transposed array only: the argument is as launched. -/
theorem V_main_arg0 (c : Dev nD) : V m c main_arg0 = m ((c : Thread nD τ).loc main_arg0) := by
  dsimp only [V, V0]
  simp only [List.flatten_cons, List.flatten_nil, List.append_nil]
  after_results

/-- The two buffers behind the three windows, each whole at the full share at the entry contents, are the
    pipeline's arrays at entry: the transposed array's full share is cut into its two halves, the left half for
    the query window and the right half for the key window (both only read it), and the result array goes
    whole to the output window. -/
theorem arrays_of_arrBufs {c : Dev nD} (dat : Dat τ (Elt F) Unit ℕ (UR sig nD τ) ℕ cfg0 c)
    (hq0 : dat.q 0 = qQuery) (hq1 : dat.q 1 = qKey) (hA : ∀ w, dat.A w = V m c (Pipeline.arrRef spec0 w)) :
    (Pipeline.arrBufs spec0 c (V m c) : sProp 𝕄) ⊢ dat.arrays (dat.arrAt · 0) := by
  unfold Pipeline.arrBufs Dat.arrays
  rw [bigSep_eq_bigSepL_of_eq [main_v0, main_v1] (by decide) (by decide), bigSep_W0]
  have h0 : ((cfg0.win 0).arr.view.loc (c.tc : Thread nD τ) ↦[(cfg0.win 0).arr.view.set]{dat.share 0} dat.arrAt 0 0 : sProp 𝕄)
      = (((c : Thread nD τ).loc main_v0) ↦{qQuery} V m c main_v0) := by
    rw [(arr_whole0 0).set_eq_univ, show dat.share 0 = dat.q 0 from rfl, hq0, show dat.arrAt 0 0 = dat.A 0 from rfl, hA 0]
  have h1 : ((cfg0.win 1).arr.view.loc (c.tc : Thread nD τ) ↦[(cfg0.win 1).arr.view.set]{dat.share 1} dat.arrAt 1 0 : sProp 𝕄)
      = (((c : Thread nD τ).loc main_v0) ↦{qKey} V m c main_v0) := by
    rw [(arr_whole0 1).set_eq_univ, show dat.share 1 = dat.q 1 from rfl, hq1, show dat.arrAt 1 0 = dat.A 1 from rfl, hA 1]
  have h2 : ((cfg0.win 2).arr.view.loc (c.tc : Thread nD τ) ↦[(cfg0.win 2).arr.view.set]{dat.share 2} dat.arrAt 2 0 : sProp 𝕄)
      = (((c : Thread nD τ).loc main_v1) ↦{fullShare} V m c main_v1) := by
    rw [(arr_whole0 2).set_eq_univ, show dat.share 2 = fullShare from rfl, show dat.arrAt 2 0 = dat.A 2 from rfl, hA 2]
  rw [h0, h1, h2]
  show iprop((((c : Thread nD τ).loc main_v0) ↦{fullShare} V m c main_v0) ∗ (((c : Thread nD τ).loc main_v1) ↦{fullShare} V m c main_v1))
    ⊢ (_ : sProp 𝕄)
  iintro ⟨H0, H1⟩
  ihave H0 := (pointsTo_share (PosShare.mem_left_op_right fullShare)).1 $$ H0
  icases H0 with ⟨Hl, Hr⟩
  isplitl [Hl]
  · iexact Hl
  isplitl [Hr]
  · iexact Hr
  · iexact H1

/-- The line after the region. The two input windows' halves of the transposed array are kept as they are; the
    result array is taken whole from the output window and the result buffer from the bypassing pair; the one
    transpose runs over these two buffers, leaving the result array unchanged and the result buffer at the
    transpose of what the region wrote; everything is handed back. -/
theorem tail_line {c : Dev nD} (dat : Dat τ (Elt F) Unit ℕ (UR sig nD τ) ℕ cfg0 c) (Q' : PUnit → sProp 𝕄) :
    iprop((iprop((dat.arrays fun w => dat.arrAt w cfg0.N)
            ∗ (((c : Thread nD τ).loc main_arg0) ↦{fullShare} V m c main_arg0)
            ∗ (((c : Thread nD τ).loc main_v2) ↦{fullShare} transpose S4x2048x8 [0, 2, 1] (dat.arrAt 2 cfg0.N) transposes_S4x8x2048_S4x2048x8_0_2_1)) -∗ Q' ⟨⟩)
        ∗ boundary (c.tc : Thread nD τ) ∗ (dat.arrays fun w => dat.arrAt w cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg) (defs₀ (F := F))) (Variants.lift Variants.none) (c.tc : Thread nD τ) none) Set.univ
          (Pipeline.chain [StableHlo.seq hostOps1]) Q' := by
  classical
  rw [Pipeline.unscopedRestP_none, unscopedRest0_eq]
  unfold Dat.arrays
  rw [bigSep_W0]
  have h2 : ((cfg0.win 2).arr.view.loc (c.tc : Thread nD τ) ↦[(cfg0.win 2).arr.view.set]{dat.share 2} dat.arrAt 2 cfg0.N : sProp 𝕄)
      = (((c : Thread nD τ).loc main_v1) ↦{fullShare} dat.arrAt 2 cfg0.N) := by
    rw [(arr_whole0 2).set_eq_univ, show dat.share 2 = fullShare from rfl]
  rw [h2, Pipeline.chain_cons, Pipeline.chain_nil]
  -- the contents the line starts from: the region's result in the result array, the entry contents elsewhere
  let W : Valuation τ sig (Elt F) := Function.update (V0 m c) (Proc.devRef .tc main_v1) (dat.arrAt 2 cfg0.N)
  have hne : Proc.devRef (τ := τ) .tc main_v1 ≠ Proc.devRef .tc main_v2 := StableHlo.devRef_ne_of_ne (by decide)
  have hW1 : W (Proc.devRef .tc main_v1) = dat.arrAt 2 cfg0.N := Function.update_self ..
  have hW2 : W (Proc.devRef .tc main_v2) = V m c main_v2 := Function.update_of_ne hne.symm ..
  have hA1 : StableHlo.after hostOps1 W (Proc.devRef .tc main_v1) = dat.arrAt 2 cfg0.N := by
    after_results; exact hW1
  have hA2 : StableHlo.after hostOps1 W (Proc.devRef .tc main_v2)
      = transpose S4x2048x8 [0, 2, 1] (dat.arrAt 2 cfg0.N) transposes_S4x8x2048_S4x2048x8_0_2_1 := by
    after_results; rw [hW1]
  have hnm : Proc.devRef (τ := τ) .tc main_v1 ∉ ({Proc.devRef .tc main_v2} : Finset (DevRef τ sig)) := by
    rw [Finset.mem_singleton]; exact hne
  have hheld : (StableHlo.held (c.tc : Thread nD τ) {Proc.devRef .tc main_v1, Proc.devRef .tc main_v2} W : sProp 𝕄)
      = iprop((((c : Thread nD τ).loc main_v1) ↦{fullShare} dat.arrAt 2 cfg0.N) ∗ (((c : Thread nD τ).loc main_v2) ↦{fullShare} V m c main_v2)) := by
    unfold StableHlo.held
    rw [bigSep_insert hnm, bigSep_singleton, hW1, hW2]; rfl
  have hheld' : (StableHlo.held (c.tc : Thread nD τ) {Proc.devRef .tc main_v1, Proc.devRef .tc main_v2} (StableHlo.after hostOps1 W) : sProp 𝕄)
      = iprop((((c : Thread nD τ).loc main_v1) ↦{fullShare} dat.arrAt 2 cfg0.N)
          ∗ (((c : Thread nD τ).loc main_v2) ↦{fullShare} transpose S4x2048x8 [0, 2, 1] (dat.arrAt 2 cfg0.N) transposes_S4x8x2048_S4x2048x8_0_2_1)) := by
    unfold StableHlo.held
    rw [bigSep_insert hnm, bigSep_singleton, hA1, hA2]; rfl
  have hS : ∀ op ∈ (hostOps1 : List (HloOp τ sig (Elt F))), op.bufs ⊆ ({Proc.devRef .tc main_v1, Proc.devRef .tc main_v2} : Finset (DevRef τ sig)) := by
    intro op hop
    rw [List.mem_singleton] at hop
    subst hop
    exact Finset.Subset.refl _
  have hf : ∀ op ∈ (hostOps1 : List (HloOp τ sig (Elt F))), op.fresh = ∅ := by
    intro op hop
    rw [List.mem_singleton] at hop
    subst hop
    rfl
  have hret : (Q' ⟨⟩ : sProp 𝕄)
      ⊢ wp frame (wpE (Pipeline.defs (fun q => (cfgs q).toPCfg) (defs₀ (F := F))) (Variants.lift Variants.none) (c.tc : Thread nD τ) none) Set.univ
          (pure ⟨⟩) Q' := le_wp_ret _ _ _ ⟨⟩ Q'
  iintro ⟨Hk, Hb, ⟨H0, H1, H2⟩, ⟨Ha, Hv⟩⟩
  ihave HS := (Entails.of_eq hheld.symm) $$ [H2 Hv]
  · isplitl [H2] <;> iassumption
  iapply (StableHlo.wp_seq (Variants.lift Variants.none) none Set.univ c {Proc.devRef .tc main_v1, Proc.devRef .tc main_v2} _ hostOps1 hS hf W) $$ [Hb HS]
  · isplitl [Hb] <;> iassumption
  iintro ⟨Hb, HS⟩
  ihave HS := (Entails.of_eq hheld') $$ HS
  icases HS with ⟨H2, Hv⟩
  iapply hret
  iapply Hk
  isplitl [H0 H1 H2]
  · isplitl [H0]; · iexact H0
    isplitl [H1]; · iexact H1
    iexact H2
  isplitl [Ha]
  · iexact Ha
  · iexact Hv

/-- The run of the whole program from the launch contents `m`. On every core the result buffer ends at the transpose
    of the output window's array after all the grid points, and the argument is as launched. The region's unscoped
    buffers that are no window's array (the argument and the result buffer) bypass it; its one scoped buffer that is
    no staging buffer (the running sum) goes through the invariant at unnamed contents. -/
theorem run_around
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = qQuery) (hq1 : ∀ c, (dats 0 c).q 1 = qKey)
    (howed : ∀ c t, (dats 0 c).owed t = 0)
    (hA : ∀ c w, (dats 0 c).A w = V m c (Pipeline.arrRef spec0 w))
    (hin : ∀ c, ΦS c ⊢ (dats 0 c).Φ 0) (hout : ∀ c, (dats 0 c).Φ (Fin.last cfg0.N) ⊢ ΦS c) :
    θ_run defs (onTc (τ := τ) (main (F := F))) ⟨m, fun _ => 0, ρ⟩ (fun r => ∀ c : Dev nD,
        r.2.mem ((c.tc : Thread nD τ).loc main_v2) = transpose S4x2048x8 [0, 2, 1] ((dats 0 c).arrAt 2 cfg0.N) transposes_S4x8x2048_S4x2048x8_0_2_1
      ∧ r.2.mem ((c.tc : Thread nD τ).loc main_arg0) = m ((c.tc : Thread nD τ).loc main_arg0)) := by
  classical
  refine Pipeline.θ_run_region_noSem_pf_tail (fun q => (cfgs q).toPCfg) (fun q => (cfgs q).toPCfg_adm) dats () cellOf_inj 0 winFacts₀0
    (Pipeline.PreFacts.none _) emb₁ defs₀ Variants.none m ρ main (fun _ => Pipeline.chain [StableHlo.seq hostOps1]) hbody
    block_pos0 arr_whole0 stage_whole0 howed
    (u₀ := initOf (Pipeline.cells _ cellOf_inj) (Pipeline.launchToks _ cellOf_inj))
    (hu₀ := ?hu0)
    (V := V m) (hmain := hmain m)
    (hsplit := ?hsplit) (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (V m c))
    (Z' := fun c => iprop((((c : Thread nD τ).loc main_arg0) ↦{fullShare} V m c main_arg0)
        ∗ (((c : Thread nD τ).loc main_v2) ↦{fullShare} transpose S4x2048x8 [0, 2, 1] ((dats 0 c).arrAt 2 cfg0.N) transposes_S4x8x2048_S4x2048x8_0_2_1)))
    (hX := ?hX) (hin := ?hin) (hout := ?hout) (htail := ?htail)
    (QY := fun c s => s.mem ((c.tc : Thread nD τ).loc main_v2) = transpose S4x2048x8 [0, 2, 1] ((dats 0 c).arrAt 2 cfg0.N) transposes_S4x8x2048_S4x2048x8_0_2_1
        ∧ s.mem ((c.tc : Thread nD τ).loc main_arg0) = V m c main_arg0)
    (hY := ?hY) (hQ := ?hQ)
  case hu0 => exact .rfl
  case hX =>
    intro c
    iintro H
    isplitr
    · iempintro
    · iexact H
  case hin =>
    intro c
    refine (?_ : _ ⊢ ΦS c).trans (hin c)
    rw [scopedRest0_eq]; unfold ΦS; simp only [scM, owns_whole]
    iintro ⟨-, -, HR⟩
    iexact HR
  case hout =>
    intro c
    refine (hout c).trans ?_
    rw [scopedRest0_eq]; unfold ΦS; simp only [scM, owns_whole]
    iintro HR
    isplitr
    · iempintro
    · iexact HR
  case hY =>
    intro c s'
    iintro ⟨-, ⟨Ha, Hv⟩, HSI⟩
    icombine HSI Ha gives %ha
    icombine HSI Hv gives %hv
    imodintro
    isplitr
    · ipureintro
      exact ⟨Buf.eq_of_forall_mem_univ hv, Buf.eq_of_forall_mem_univ ha⟩
    · iexact HSI
  case hQ =>
    intro s h c
    exact ⟨(h c).2.2.1, (h c).2.2.2.trans (V_main_arg0 m c)⟩
  case hsplit => exact fun c => arrays_of_arrBufs m (dats 0 c) (hq0 c) (hq1 c) (hA c)
  case htail => exact fun c Q' => tail_line m (dats 0 c) Q'

end Cert.KernelIdeal.Hand

end
-- ==== Proof.KV.Final.lean ====
/-
  The idealized kernel's run, read: its result array is the specification's function of the argument. The region
  leaves in the [4, 8, 2048] array, at (b, d, nn), the sum over all 2048 keys of the comparisons of query column
  nn, times 2⁻¹¹ (every entry lies in the one block written back at the last key tile of its query tile); the host
  line after the region transposes it back to [4, 2048, 8]; and the transposed argument read at (b, d, n) is the
  argument at (b, n, d). So entry (b, n, d) of the result is (Σ_i logistic (1000 · (x[b,n,d] − x[b,i,d]))) · 2⁻¹¹.
-/
import proofs.«175407_j37194416783875_1_alg».proof.Proof.KV.Accum
import proofs.«175407_j37194416783875_1_alg».proof.Proof.KV.Cover
import proofs.«175407_j37194416783875_1_alg».proof.Proof.KI.Launch
import Idealize.ShloMosaic.Lib.ValueLayout

set_option maxRecDepth 16384

noncomputable section

namespace Cert.KernelIdeal.Hand

open Cert.KernelIdeal Cert.KernelIdeal.Gen Cert.KernelIdeal.HandValue Cert.SoftRank
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

variable (ρ : Dev nD → PrngReg)

/-- What the region leaves in the [4, 8, 2048] array. -/
def Hfun (c : Dev nD) : S4x8x2048.Idx → EReal := fun i =>
  (∑ k : Fin 2048, sg m c ⟨(i 0).val, (i 0).isLt⟩ ⟨(i 1).val, (i 1).isLt⟩ ⟨(i 2).val, (i 2).isLt⟩ k) * Ideal.ofBits .f32 0x3A000000#32

theorem Hfun_apply (c : Dev nD) (b : Fin 4) (d : Fin 8) (nn : Fin 2048) :
    Hfun m c (ix3 b d nn) = (∑ k : Fin 2048, sg m c b d nn k) * Ideal.ofBits .f32 0x3A000000#32 := rfl

/-- The output array after the region. -/
theorem arr_final (c : Dev nD) : (dats m 0 c).arrAt 2 cfg0.N = Hfun m c :=
  arrAt_out m c (Hfun m c) fun t ht d n => by
    have hN : t.val < 128 := lt_of_lt_of_eq t.isLt (show cfg0.N = 128 from N_0)
    obtain ⟨b, ni, rfl⟩ : ∃ b ni : Fin 4, t = pt b ni 7 (by norm_num) :=
      ⟨⟨t.val / 32, by omega⟩, ⟨(t.val / 8) % 4, by omega⟩, Fin.ext (by show t.val = 32 * (t.val / 32) + 8 * ((t.val / 8) % 4) + 7; omega)⟩
    have hb := b.isLt; have hni := ni.isLt; have hn := n.isLt
    rw [outAt_last, ← Hfun_apply]
    exact congrArg₂ (fun (a : Fin 4) (e : Fin 2048) => Hfun m c (ix3 a d e))
      (Fin.ext (by show b.val = (32 * b.val + 8 * ni.val + 7) / 32; omega))
      (Fin.ext (by show 512 * ni.val + n.val = 512 * (((32 * b.val + 8 * ni.val + 7) / 8) % 4) + n.val; omega))

/-- Entry (b, d, n) of what the region leaves is entry (b, n, d) of the specification: the transposed argument at
    (b, d, ·) is the argument at (b, ·, d). -/
theorem Hfun_eq_G (c : Dev nD) (b : Fin 4) (n : Fin 2048) (d : Fin 8) :
    Hfun m c (ix3 b d n) = G (m ((c : Thread nD τ).loc main_arg0)) (ix3 b n d) := by
  rw [Hfun_apply, G_apply]
  congr 1
  refine Finset.sum_congr rfl fun k _ => ?_
  unfold sg term
  rw [show xT m c (ix3 b d n) = _ from V_v0_apply m c b d n, show xT m c (ix3 b d k) = _ from V_v0_apply m c b d k]

/-- Transposed back, it is the specification's function. -/
theorem transpose_Hfun (c : Dev nD) :
    transpose S4x2048x8 [0, 2, 1] (Hfun m c) transposes_S4x8x2048_S4x2048x8_0_2_1
      = G (m ((c : Thread nD τ).loc main_arg0)) := by
  funext i
  obtain ⟨b, n, d, rfl⟩ : ∃ (b : Fin 4) (n : Fin 2048) (d : Fin 8), i = ix3 b n d := ⟨i 0, i 1, i 2, eq_ix3 i⟩
  exact (transpose_ix3_021_apply (Hfun m c) transposes_S4x8x2048_S4x2048x8_0_2_1 b n d).trans (Hfun_eq_G m c b n d)

/-- The result array is the specification's function of the argument. -/
theorem value_eq (c : Dev nD) :
    transpose S4x2048x8 [0, 2, 1] ((dats m 0 c).arrAt 2 cfg0.N) transposes_S4x8x2048_S4x2048x8_0_2_1
      = G (m ((c : Thread nD τ).loc main_arg0)) :=
  (congrArg (fun A : S4x8x2048.Idx → EReal => transpose S4x2048x8 [0, 2, 1] A transposes_S4x8x2048_S4x2048x8_0_2_1) (arr_final m c)).trans
    (transpose_Hfun m c)

/-- THE IDEALIZED KERNEL'S RUN: every weakly fair execution ends with the result at the specification's function
    of the argument and the argument unchanged. -/
theorem run_value : θ_run defs (onTc (τ := τ) (main (F := Ideal))) ⟨m, fun _ => 0, ρ⟩ (fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0)) :=
  (θ_run defs _ _).mono (fun _ h c => ⟨(h c).1.trans (value_eq m c), (h c).2⟩)
    (run_around m ρ (dats m) (fun c => (body_obligation m c).loose) (fun _ => rfl) (fun _ => rfl) (fun _ _ => rfl)
      (A_eq m) (hin m) (hout m))

end Cert.KernelIdeal.Hand

end
-- ==== Proof.RefSpec.lean ====
/-
  The reference is the specification.  Read one operation at a time, the reference's result at (b, n, d) is
      (0 + Σ_{k < 2048} 1 / (1 + exp (−(1000 · (x[b,n,d] − x[b,k,d]))))) / 2048
  on the extended reals: the two broadcasts of x put x[b,n,d] and x[b,k,d] side by side at the index (b, n, k, d), and
  the sum runs over k.  The quotient 1 / (1 + exp (−t)) is the logistic function by definition, the words 0x3F800000,
  0x45000000 and 0x3A000000 denote 1, 2048 and 1/2048, and dividing an extended real by 2048 is multiplying it by
  1/2048 (at the infinities too), so the result is the specification's G.
-/
import proofs.«175407_j37194416783875_1_alg».proof.Proof.Gen.ReferenceIdeal.Read
import proofs.«175407_j37194416783875_1_alg».proof.Proof.Spec

noncomputable section

namespace Cert.SoftRank

open Idealize.ShloMosaic Idealize.ShloMosaic.ValueIdx

/-- The word 0x3F800000 denotes 1. -/
theorem ofBits_one : Ideal.ofBits .f32 0x3F800000#32 = 1 := by
  simp [Ideal.ofBits, Ideal.ieee, -EReal.coe_mul]; norm_num

/-- The word 0x45000000 denotes 2048 = 2¹¹. -/
theorem ofBits_2048 : Ideal.ofBits .f32 0x45000000#32 = ((2048 : ℝ) : EReal) := by
  simp [Ideal.ofBits, Ideal.ieee, -EReal.coe_mul]; norm_num

/-- The word 0x3A000000 denotes 2⁻¹¹ = 1/2048. -/
theorem ofBits_inv2048 : Ideal.ofBits .f32 0x3A000000#32 = ((1 / 2048 : ℝ) : EReal) := by
  simp [Ideal.ofBits, Ideal.ieee, -EReal.coe_mul]; norm_num

open Cert.ReferenceIdeal Cert.ReferenceIdeal.Read in
theorem ref_eq_G (x : (⟨Cert.ReferenceIdeal.S4x2048x8, .f32⟩ : BufTy).Contents (Elt Ideal)) :
    Cert.ReferenceIdeal.Read.val_main_v15 (F := Ideal) x = G x := by
  funext i
  obtain ⟨b, n, d, rfl⟩ : ∃ (b : Fin 4) (n : Fin 2048) (d : Fin 8), i = ix3 b n d := ⟨i 0, i 1, i 2, eq_ix3 i⟩
  have hq : ∀ k : Fin 2048, idx_main_v0 (idx_main_v2 (idx_main_v13 (ix3 b n d) k)) = ix3 b n d := fun k =>
    funext fun a => Fin.ext (by match a with | ⟨0, _⟩ => rfl | ⟨1, _⟩ => rfl | ⟨2, _⟩ => rfl)
  have hk : ∀ k : Fin 2048, idx_main_v1 (idx_main_v3 (idx_main_v13 (ix3 b n d) k)) = ix3 b k d := fun k =>
    funext fun a => Fin.ext (by match a with | ⟨0, _⟩ => rfl | ⟨1, _⟩ => rfl | ⟨2, _⟩ => rfl)
  rw [G_apply, val_main_v15_apply, val_main_v13_apply, val_main_v14_apply, val_main_cst_3_apply, val_main_cst_2_apply]
  simp only [val_main_v12_apply, val_main_v11_apply, val_main_cst_1_apply, val_main_v10_apply, val_main_v9_apply,
    val_main_cst_0_apply, val_main_v8_apply, val_main_v7_apply, val_main_v6_apply, val_main_v5_apply, val_main_cst_apply,
    val_main_v4_apply, val_main_v2_apply, val_main_v3_apply, val_main_v0_apply, val_main_v1_apply, hq, hk,
    Ideal.hostDivf_def, Ideal.hostUnary_exp_def, Ideal.hostNegf_def, Ideal.negf_def, Ideal.addf_def, Ideal.mulf_def,
    Ideal.subf_def, Ideal.ofBits_def, Ideal.ofBits_zero_f32, zero_add, ofBits_one, ofBits_2048, ofBits_inv2048,
    Ideal.div_coe (by norm_num : (2048 : ℝ) ≠ 0), term, Ideal.logistic]

end Cert.SoftRank

end
-- ==== Proof.lean ====
/-
  Soft rank: out[b, n, d] = (1/2048) · Σ_i σ(1000 · (x[b, n, d] − x[b, i, d])), σ the logistic function, for x of
  shape [4, 2048, 8].

  The kernel transposes x to [4, 8, 2048], tiles the query axis by 512 and the key axis by 256, and on the grid
  (batch, query tile, key tile) keeps a running sum in scratch: reset at the first key tile, each tile's 256
  comparisons summed along the lanes and added, and at the last key tile the sum times the literal 2⁻¹¹ stored to
  the output block; the result is transposed back. Both input windows read the ONE transposed array, each holding
  half of its share. The reference materializes all 2048 × 2048 comparisons per batch and feature, spells σ as
  1 / (1 + e^(−t)), sums over the key axis and divides by 2048.

  Over the extended reals the two agree with no hypothesis on x: σ as one operation is by definition the quotient
  the reference spells, the ordered chain of the eight tiles' sums from zero is the sum over all 2048 keys
  (addition of extended reals is associative and commutative), and dividing by 2048 is multiplying by 2⁻¹¹ on
  every extended real. The frames: each program terminates without fault and leaves its argument unchanged — the
  kernel's two instances by one run of the pipeline stated once for any float instance, the reference by its
  straight line of host operations. The idealization rewrote nothing.
-/
import proofs.«175407_j37194416783875_1_alg».proof.Defs
import proofs.«175407_j37194416783875_1_alg».proof.Proof.K.Body
import proofs.«175407_j37194416783875_1_alg».proof.Proof.K.Launch
import proofs.«175407_j37194416783875_1_alg».proof.Proof.KV.Final
import proofs.«175407_j37194416783875_1_alg».proof.Proof.RefSpec
import proofs.«175407_j37194416783875_1_alg».proof.Proof.Gen.Kernel
import proofs.«175407_j37194416783875_1_alg».proof.Proof.Gen.KernelIdeal
import proofs.«175407_j37194416783875_1_alg».proof.Proof.Gen.ReferenceIdeal
import proofs.«175407_j37194416783875_1_alg».proof.Proof.Gen.ReferenceIdeal.Run
import proofs.«175407_j37194416783875_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs to the end and leaves its argument as it was. -/
theorem frame_k : Cert.frame_Kernel := fun m ρ _ =>
  (θ_run Cert.Kernel.defs _ _).mono (fun _ h c => (h c).2)
    (Cert.Kernel.Hand.run_around (F := Bits) m ρ (Cert.Kernel.Hand.dats m)
      (fun c => (Cert.Kernel.Hand.body_obligation m c).loose) (fun _ => rfl) (fun _ => rfl) (fun _ _ => rfl)
      (Cert.Kernel.Hand.A_eq m) (Cert.Kernel.Hand.hin m) (Cert.Kernel.Hand.hout m))

/-- So does its idealization. -/
theorem frame_ki : Cert.frame_KernelIdeal := fun m ρ _ =>
  (θ_run Cert.KernelIdeal.defs _ _).mono (fun _ h c => (h c).2) (Cert.KernelIdeal.Hand.run_value m ρ)

/-- The reference is a straight line of host operations. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end at the soft rank of the argument. -/
theorem algebraic : Cert.algebraic_KernelIdeal_ReferenceIdeal := by
  intro m ρ m' ρ' _ hagree
  refine ⟨fun c => Cert.SoftRank.G (m ((c.tc : Thread Cert.KernelIdeal.nD Cert.KernelIdeal.τ).loc Cert.KernelIdeal.main_arg0)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.SoftRank.ref_eq_G, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
